-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x64 : Shape := ⟨2, ![512, 64]⟩
abbrev S64 : Shape := ⟨1, ![64]⟩
abbrev S64x40 : Shape := ⟨2, ![64, 40]⟩
abbrev S40 : Shape := ⟨1, ![40]⟩
abbrev S_ : Shape := ⟨0, ![]⟩
abbrev S1x3200000 : Shape := ⟨2, ![1, 3200000]⟩
abbrev S3200000 : Shape := ⟨1, ![3200000]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_
  slices_S2x3200000_S1x3200000_0_0 : S2x3200000.Slices ![0, 0] S1x3200000
  shapeCasts_S1x3200000_S3200000 : S1x3200000.ShapeCasts S3200000
  bcast_S_S3200000 : S_.BroadcastsInDim S3200000 (![] : Fin 0 → Fin S3200000.rank)
  reducesTo_S3200000_S_d0 : S3200000.ReducesTo [0] S_

variable [Facts]

def fn_part1 {F : FTy → Type} [FloatOps F] (main_arg1 : IVec S2x3200000 32) (main_arg5 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  let main_v24 : IVec S1x3200000 32 := (extractStridedSlice S1x3200000 ![0, 0] · slices_S2x3200000_S1x3200000_0_0) main_arg1
  let main_v25 : IVec S3200000 32 := shapeCast S3200000 main_v24 shapeCasts_S1x3200000_S3200000
  let main_c_8 : IVec S_ 32 := constantI S_ 32 0#32
  let main_v26 : IVec S3200000 32 := broadcastInDim S3200000 ![] bcast_S_S3200000 main_c_8
  let main_v27 : IVec S3200000 1 := cmpi .sge main_v25 main_v26
  let main_v28 : IVec S1x3200000 32 := (extractStridedSlice S1x3200000 ![0, 0] · slices_S2x3200000_S1x3200000_0_0) main_arg1
  let main_v29 : IVec S3200000 32 := shapeCast S3200000 main_v28 shapeCasts_S1x3200000_S3200000
  let main_c_9 : IVec S_ 32 := constantI S_ 32 100000#32
  let main_v30 : IVec S3200000 32 := broadcastInDim S3200000 ![] bcast_S_S3200000 main_c_9
  let main_v31 : IVec S3200000 1 := cmpi .slt main_v29 main_v30
  let main_v32 : IVec S3200000 1 := andi main_v27 main_v31
  let main_c_10 : IVec S_ 1 := constantI S_ 1 1#1
  let main_v33 : IVec S_ 1 := (fun x v => Host.reduce IntOp.andi x v reducesTo_S3200000_S_d0 h_S_) main_v32 main_c_10
  let main_v34 : IVec S_ 1 := andi main_v23 main_v33
  main_v34

def fn {F : FTy → Type} [FloatOps F] (main_arg0 : FVec F S100000x512 .f32) (main_arg1 : IVec S2x3200000 32) (main_arg2 : FVec F S512x64 .f32) (main_arg3 : FVec F S64 .f32) (main_arg4 : FVec F S64x40 .f32) (main_arg5 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg1 main_arg5 main_v13 main_v16
-- ==== Kernel.lean ====
abbrev S100000x512 : Shape := ⟨2, ![100000, 512]⟩
abbrev S2x3200000 : Shape := ⟨2, ![2, 3200000]⟩
abbrev S512x64 : Shape := ⟨2, ![512, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S5000x512 : Shape := ⟨2, ![5000, 512]⟩
abbrev S5000x64 : Shape := ⟨2, ![5000, 64]⟩
abbrev S1 : Shape := ⟨1, ![1]⟩
abbrev S1x1 : Shape := ⟨2, ![1, 1]⟩
abbrev S3300000x64 : Shape := ⟨2, ![3300000, 64]⟩
abbrev S1x64 : Shape := ⟨2, ![1, 64]⟩
abbrev S10000x64 : Shape := ⟨2, ![10000, 64]⟩
abbrev S100000x40 : Shape := ⟨2, ![100000, 40]⟩
abbrev S5000x40 : Shape := ⟨2, ![5000, 40]⟩
abbrev S3300000x40 : Shape := ⟨2, ![3300000, 40]⟩
abbrev S1x40 : Shape := ⟨2, ![1, 40]⟩
abbrev S10000x40 : Shape := ⟨2, ![10000, 40]⟩
abbrev S10000 : Shape := ⟨1, ![10000]⟩
abbrev S10000x1 : Shape := ⟨2, ![10000, 1]⟩

abbrev nBuf : Space → Nat
  | .hbm => 112
  | .vmem => 20
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x64, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S1, .i32⟩
  | .hbm, ⟨56, _⟩ => ⟨S_, .i32⟩
  | .hbm, ⟨57, _⟩ => ⟨S3300000x1, .i32⟩
  | .hbm, ⟨58, _⟩ => ⟨S3300000x1, .i1⟩
  | .hbm, ⟨59, _⟩ => ⟨S1x1, .i32⟩
  | .hbm, ⟨60, _⟩ => ⟨S3300000x1, .i32⟩
  | .hbm, ⟨61, _⟩ => ⟨S3300000x1, .i1⟩
  | .hbm, ⟨62, _⟩ => ⟨S3300000x1, .i1⟩
  | .hbm, ⟨63, _⟩ => ⟨S_, .i1⟩
  | .hbm, ⟨64, _⟩ => ⟨S3300000, .i1⟩
  | .hbm, ⟨65, _⟩ => ⟨S3300000x64, .f32⟩
  | .hbm, ⟨66, _⟩ => ⟨S3300000x64, .i1⟩
  | .hbm, ⟨67, _⟩ => ⟨S_, .f32⟩
  | .hbm, ⟨68, _⟩ => ⟨S3300000x64, .f32⟩
  | .hbm, ⟨69, _⟩ => ⟨S3300000x64, .f32⟩
  | .hbm, ⟨70, _⟩ => ⟨S3300000x1, .f32⟩
  | .hbm, ⟨71, _⟩ => ⟨S3300000x64, .f32⟩
  | .hbm, ⟨72, _⟩ => ⟨S3300000x64, .f32⟩
  | .hbm, ⟨73, _⟩ => ⟨S_, .f32⟩
  | .hbm, ⟨74, _⟩ => ⟨S100000x64, .f32⟩
  | .hbm, ⟨75, _⟩ => ⟨S3300000x1, .i32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S100000x40, .f32⟩
  | .hbm, ⟨80, _⟩ => ⟨S_, .i32⟩
  | .hbm, ⟨81, _⟩ => ⟨S3300000, .i32⟩
  | .hbm, ⟨82, _⟩ => ⟨S3300000, .i1⟩
  | .hbm, ⟨83, _⟩ => ⟨S_, .i32⟩
  | .hbm, ⟨84, _⟩ => ⟨S3300000, .i32⟩
  | .hbm, ⟨85, _⟩ => ⟨S3300000, .i32⟩
  | .hbm, ⟨86, _⟩ => ⟨S3300000, .i32⟩
  | .hbm, ⟨87, _⟩ => ⟨S3300000x1, .i32⟩
  | .hbm, ⟨88, _⟩ => ⟨S1, .i32⟩
  | .hbm, ⟨89, _⟩ => ⟨S_, .i32⟩
  | .hbm, ⟨90, _⟩ => ⟨S3300000x1, .i32⟩
  | .hbm, ⟨91, _⟩ => ⟨S3300000x1, .i1⟩
  | .hbm, ⟨92, _⟩ => ⟨S1x1, .i32⟩
  | .hbm, ⟨93, _⟩ => ⟨S3300000x1, .i32⟩
  | .hbm, ⟨94, _⟩ => ⟨S3300000x1, .i1⟩
  | .hbm, ⟨95, _⟩ => ⟨S3300000x1, .i1⟩
  | .hbm, ⟨96, _⟩ => ⟨S_, .i1⟩
  | .hbm, ⟨97, _⟩ => ⟨S3300000, .i1⟩
  | .hbm, ⟨98, _⟩ => ⟨S3300000x40, .f32⟩
  | .hbm, ⟨99, _⟩ => ⟨S3300000x40, .i1⟩
  | .hbm, ⟨100, _⟩ => ⟨S_, .f32⟩
  | .hbm, ⟨101, _⟩ => ⟨S3300000x40, .f32⟩
  | .hbm, ⟨102, _⟩ => ⟨S3300000x40, .f32⟩
  | .hbm, ⟨103, _⟩ => ⟨S3300000x1, .f32⟩
  | .hbm, ⟨104, _⟩ => ⟨S3300000x40, .f32⟩
  | .hbm, ⟨105, _⟩ => ⟨S3300000x40, .f32⟩
  | .hbm, ⟨106, _⟩ => ⟨S_, .f32⟩
  | .hbm, ⟨107, _⟩ => ⟨S100000x40, .f32⟩
  | .hbm, ⟨108, _⟩ => ⟨S3300000x1, .i32⟩
  | .hbm, ⟨109, _⟩ => ⟨S100000x40, .f32⟩
  | .hbm, ⟨110, _⟩ => ⟨S1x40, .f32⟩
  | .hbm, ⟨111, _⟩ => ⟨S100000x40, .f32⟩
  | .local _ .vmem, ⟨0, _⟩ => ⟨S5000x512, .f32⟩
  | .local _ .vmem, ⟨1, _⟩ => ⟨S5000x512, .f32⟩
  | .local _ .vmem, ⟨2, _⟩ => ⟨S512x64, .f32⟩
  | .local _ .vmem, ⟨3, _⟩ => ⟨S5000x64, .f32⟩
  | .local _ .vmem, ⟨4, _⟩ => ⟨S5000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S5000x64, .f32⟩
  | .local _ .vmem, ⟨11, _⟩ => ⟨S5000x64, .f32⟩
  | .local _ .vmem, ⟨12, _⟩ => ⟨S64x40, .f32⟩
  | .local _ .vmem, ⟨13, _⟩ => ⟨S5000x40, .f32⟩
  | .local _ .vmem, ⟨14, _⟩ => ⟨S5000x40, .f32⟩
  | .local _ .vmem, ⟨15, _⟩ => ⟨S10000x40, .f32⟩
  | .local _ .vmem, ⟨16, _⟩ => ⟨S10000x40, .f32⟩
  | .local _ .vmem, ⟨17, _⟩ => ⟨S1x40, .f32⟩
  | .local _ .vmem, ⟨18, _⟩ => ⟨S10000x40, .f32⟩
  | .local _ .vmem, ⟨19, _⟩ => ⟨S10000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_call1_cst : Ref sig .tc := ⟨.hbm, 67, rfl⟩
abbrev main_call1_v15 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_cst_6 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_call2_c : Ref sig .tc := ⟨.hbm, 80, rfl⟩
abbrev main_call2_v0 : Ref sig .tc := ⟨.hbm, 81, rfl⟩
abbrev main_call2_v1 : Ref sig .tc := ⟨.hbm, 82, rfl⟩
abbrev main_call2_c_0 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_v5 : Ref sig .tc := ⟨.hbm, 87, rfl⟩
abbrev main_call2_c_1 : Ref sig .tc := ⟨.hbm, 88, rfl⟩
abbrev main_call2_c_2 : Ref sig .tc := ⟨.hbm, 89, rfl⟩
abbrev main_call2_v6 : Ref sig .tc := ⟨.hbm, 90, rfl⟩
abbrev main_call2_v7 : Ref sig .tc := ⟨.hbm, 91, rfl⟩
abbrev main_call2_v8 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_c_3 : Ref sig .tc := ⟨.hbm, 96, rfl⟩
abbrev main_call2_v12 : Ref sig .tc := ⟨.hbm, 97, rfl⟩
abbrev main_call2_v13 : Ref sig .tc := ⟨.hbm, 98, rfl⟩
abbrev main_call2_v14 : Ref sig .tc := ⟨.hbm, 99, rfl⟩
abbrev main_call2_cst : Ref sig .tc := ⟨.hbm, 100, rfl⟩
abbrev main_call2_v15 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_cst_7 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S5000x64_S5000x64_0_0 : ∀ a, (![0, 0] : Fin 2 → Nat) a + S5000x64.size a ≤ S5000x64.size a
  h_S5000x64 : 0 < S5000x64.numel
  bcast_S_S3300000x1 : S_.BroadcastsInDim S3300000x1 (![] : Fin 0 → Fin S3300000x1.rank)
  bcast_S1_S1x1_1 : S1.BroadcastsInDim S1x1 (![1] : Fin 1 → Fin S1x1.rank)
  bcast_S1x1_S3300000x1_0_1 : S1x1.BroadcastsInDim S3300000x1 (![0, 1] : Fin 2 → Fin S3300000x1.rank)
  reducesTo_S3300000x1_S3300000_d1 : S3300000x1.ReducesTo [1] S3300000
  h_S_ : 0 < S_.numel
  bcast_S3300000_S3300000x64_0 : S3300000.BroadcastsInDim S3300000x64 (![0] : Fin 1 → Fin S3300000x64.rank)
  bcast_S_S3300000x64 : S_.BroadcastsInDim S3300000x64 (![] : Fin 0 → Fin S3300000x64.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S5000x64_S5000x64 : S5000x64.ShapeCasts S5000x64
  inb_S64x40_S64x40_0_0 : ∀ a, (![0, 0] : Fin 2 → Nat) a + S64x40.size a ≤ S64x40.size a
  h_S64x40 : 0 < S64x40.numel
  inb_S5000x40_S5000x40_0_0 : ∀ a, (![0, 0] : Fin 2 → Nat) a + S5000x40.size a ≤ S5000x40.size a
  h_S5000x40 : 0 < S5000x40.numel
  bcast_S3300000_S3300000x40_0 : S3300000.BroadcastsInDim S3300000x40 (![0] : Fin 1 → Fin S3300000x40.rank)
  bcast_S_S3300000x40 : S_.BroadcastsInDim S3300000x40 (![] : Fin 0 → Fin S3300000x40.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  shapeCasts_S40_S1x40 : S40.ShapeCasts S1x40
  inb_S10000x40_S10000x40_0_0 : ∀ a, (![0, 0] : Fin 2 → Nat) a + S10000x40.size a ≤ S10000x40.size a
  h_S10000x40 : 0 < S10000x40.numel
  shapeCasts_S10000x40_S10000x40 : S10000x40.ShapeCasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  reduces_S10000x40_S10000 : S10000x40.Reduces [1] S10000
  shapeCasts_S10000_S10000x1 : S10000.ShapeCasts S10000x1
  broadcasts_S10000x1_S10000x40 : S10000x1.Broadcasts S10000x40
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x512_S512x64_S5000x64_1_0_0_1_n_n_wf : DotDims.WF S5000x512 S512x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S5000x64_S64x40_S5000x40_1_0_0_1_n_n_wf : DotDims.WF S5000x64 S64x40 S5000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x40.size a ≤ S64x40.size a
  hwx2_1 : ∀ i : grid2.Coords, EltTy.bits .f32 = 32 ∨ (Rect.block (s := S64x40) S64x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S100000x40.size a
  hwx2_2 : ∀ i : grid2.Coords, EltTy.bits .f32 = 32 ∨ (Rect.block (s := S100000x40) S5000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x40.size a ≤ S100000x40.size a
  hwx3_0 : ∀ i : grid3.Coords, EltTy.bits .f32 = 32 ∨ (Rect.block (s := S100000x40) S10000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x40.size a ≤ S100000x40.size a
  hwx3_2 : ∀ i : grid3.Coords, EltTy.bits .f32 = 32 ∨ (Rect.block (s := S100000x40) S10000x40.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x512_S512x64_S5000x64_1_0_0_1_n_n : DotDims S5000x512 S512x64 S5000x64 where
  lhsContracting := [1]
  rhsContracting := [0]
  lhsNonContracting := [0]
  rhsNonContracting := [1]
  lhsBatch := []
  rhsBatch := []
  wf := dot_S5000x512_S512x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v37) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v39) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v39) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v40) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v47) S10000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v49) S10000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x64 : Shape := ⟨2, ![512, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x40 : Shape := ⟨2, ![100000, 40]⟩
abbrev S3300000x40 : Shape := ⟨2, ![3300000, 40]⟩
abbrev S1x40 : Shape := ⟨2, ![1, 40]⟩
abbrev S100000x1 : Shape := ⟨2, ![100000, 1]⟩

abbrev nBuf : Space → Nat
  | .hbm => 103
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x64, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x64, .f32⟩
  | .hbm, ⟨56, _⟩ => ⟨S3300000x1, .f32⟩
  | .hbm, ⟨57, _⟩ => ⟨S3300000x64, .f32⟩
  | .hbm, ⟨58, _⟩ => ⟨S3300000x64, .f32⟩
  | .hbm, ⟨59, _⟩ => ⟨S_, .f32⟩
  | .hbm, ⟨60, _⟩ => ⟨S100000x64, .f32⟩
  | .hbm, ⟨61, _⟩ => ⟨S3300000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x40, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x40, .f32⟩
  | .hbm, ⟨79, _⟩ => ⟨S3300000x1, .f32⟩
  | .hbm, ⟨80, _⟩ => ⟨S3300000x40, .f32⟩
  | .hbm, ⟨81, _⟩ => ⟨S3300000x40, .f32⟩
  | .hbm, ⟨82, _⟩ => ⟨S_, .f32⟩
  | .hbm, ⟨83, _⟩ => ⟨S100000x40, .f32⟩
  | .hbm, ⟨84, _⟩ => ⟨S3300000x1, .i32⟩
  | .hbm, ⟨85, _⟩ => ⟨S100000x40, .f32⟩
  | .hbm, ⟨86, _⟩ => ⟨S1x40, .f32⟩
  | .hbm, ⟨87, _⟩ => ⟨S100000x40, .f32⟩
  | .hbm, ⟨88, _⟩ => ⟨S100000x40, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x40, .f32⟩
  | .hbm, ⟨96, _⟩ => ⟨S100000x40, .f32⟩
  | .hbm, ⟨97, _⟩ => ⟨S100000x40, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x40, .f32⟩
  | .hbm, ⟨102, _⟩ => ⟨S100000x40, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_12 : Ref sig .tc := ⟨.hbm, 89, rfl⟩
abbrev main_v65 : Ref sig .tc := ⟨.hbm, 90, rfl⟩
abbrev main_cst_13 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_14 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x64_S100000x64_1_0_0_1_n_n_wf : DotDims.WF S100000x512 S512x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x40_S100000x40_1_0_0_1_n_n_wf : DotDims.WF S100000x64 S64x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.HostChain.lean ====
/-
  The host side of the kernel's program, stretch by stretch, as values. Between its four kernel regions the program
  runs plain array operations: first the edge lists (source and destination indices, each followed by the self-loops'
  node numbers) and the symmetric normalisation (degree by a scatter-add of ones, inverse square root where the degree
  is positive, the product of the two endpoints' factors); then, after each dense projection, the row lookup at the
  source indices, the scaling by the normalisation, and the scatter-add into the destination rows; and the reshape of
  each bias to a row. The reference runs the same operations in the same order. Here each buffer of the kernel's program
  that a later step reads is shown to hold, after its stretch, the same composition of operations that the
  corresponding stage of the reference is, for any float values.
-/
import proofs.«420683_j33337536151790_2_alg».proof.Proof.Gen.KernelIdeal.Frame
import proofs.«420683_j33337536151790_2_alg».proof.Proof.RefRead
import Idealize.ShloMosaic.Lib.StableHlo.Run

set_option maxRecDepth 16384

noncomputable section

namespace Cert.Bridge

open Idealize.ShloMosaic Idealize.ShloMosaic.TcCoe Idealize.SL.Sem Idealize.ShloMosaic.StableHlo
open Cert.KernelIdeal Cert.KernelIdeal.Gen

variable {F : FTy → Type} [FloatOps F]

/-! ## Before the first region: the edge lists and the normalisation -/

section Entry
variable (m : (ℓ : Loc nD τ sig) → Buf (Elt F) ℓ) (ρ : Dev nD → PrngReg)

/-- The source indices: row 0 of the edge array, then the node numbers. -/
theorem W3_src (c : Dev nD) :
    W3 m ρ c (Proc.devRef .tc main_v3) = Cert.ReferenceIdeal.ReadP.val_main_v3 (F := F) (m ((c.tc : Thread nD τ).loc main_arg1)) := by
  dsimp only [W3, W2, W1, W0, hostOps0, hostOps0_1, hostOps0_2]
  after_results
  rfl

/-- The destination indices: row 1 of the edge array, then the node numbers. -/
theorem W3_dst (c : Dev nD) :
    W3 m ρ c (Proc.devRef .tc main_v6) = Cert.ReferenceIdeal.ReadP.val_main_v6 (F := F) (m ((c.tc : Thread nD τ).loc main_arg1)) := by
  dsimp only [W3, W2, W1, W0, hostOps0, hostOps0_1, hostOps0_2]
  after_results
  rfl

set_option maxHeartbeats 4000000 in
/-- The normalisation factor of every edge slot. -/
theorem W3_norm (c : Dev nD) :
    W3 m ρ c (Proc.devRef .tc main_v29) = Cert.ReferenceIdeal.ReadP.val_main_v29 (F := F) (m ((c.tc : Thread nD τ).loc main_arg1)) := by
  show StableHlo.after hostOps0_2 (StableHlo.after hostOps0_1 (StableHlo.after hostOps0 (W0 m ρ c))) (Proc.devRef .tc main_v29) = _
  after_results_simp
  rfl

/-- Argument 0 is as launched when the first region is entered. -/
theorem W3_arg0 (c : Dev nD) :
    W3 m ρ c (Proc.devRef .tc main_arg0) = m ((c.tc : Thread nD τ).loc main_arg0) := by
  dsimp only [W3, W2, W1, W0, hostOps0, hostOps0_1, hostOps0_2]
  after_results

/-- Argument 2 is as launched when the first region is entered. -/
theorem W3_arg2 (c : Dev nD) :
    W3 m ρ c (Proc.devRef .tc main_arg2) = m ((c.tc : Thread nD τ).loc main_arg2) := by
  dsimp only [W3, W2, W1, W0, hostOps0, hostOps0_1, hostOps0_2]
  after_results

/-- Argument 3 is as launched when the first region is entered. -/
theorem W3_arg3 (c : Dev nD) :
    W3 m ρ c (Proc.devRef .tc main_arg3) = m ((c.tc : Thread nD τ).loc main_arg3) := by
  dsimp only [W3, W2, W1, W0, hostOps0, hostOps0_1, hostOps0_2]
  after_results

/-- Argument 4 is as launched when the first region is entered. -/
theorem W3_arg4 (c : Dev nD) :
    W3 m ρ c (Proc.devRef .tc main_arg4) = m ((c.tc : Thread nD τ).loc main_arg4) := by
  dsimp only [W3, W2, W1, W0, hostOps0, hostOps0_1, hostOps0_2]
  after_results

/-- Argument 5 is as launched when the first region is entered. -/
theorem W3_arg5 (c : Dev nD) :
    W3 m ρ c (Proc.devRef .tc main_arg5) = m ((c.tc : Thread nD τ).loc main_arg5) := by
  dsimp only [W3, W2, W1, W0, hostOps0, hostOps0_1, hostOps0_2]
  after_results

end Entry

/-! ## After a projection: scale the looked-up rows and scatter-add them; the bias as a row -/

/-- The first aggregation, from any contents `W`: zeros, scatter-added at the destination indices with the looked-up
    rows times the normalisation. -/
theorem agg64 (W : Valuation τ sig (Elt F)) :
    StableHlo.after (hostOps1_1 (F := F)) W (Proc.devRef .tc main_v37)
      = Host.scatterAdd scatter_S100000x64_S3300000x1_S3300000x64_1_0_0_1
          (broadcastInDim S100000x64 ![] bcast_S_S100000x64 (constant S_ .f32 0x00000000#32))
          (broadcastInDim S3300000x1 ![0] bcast_S3300000_S3300000x1_0 (W (Proc.devRef .tc main_v6)))
          (mulf (W (Proc.devRef .tc main_v31))
            (broadcastInDim S3300000x64 ![0, 1] bcast_S3300000x1_S3300000x64_0_1
              (broadcastInDim S3300000x1 ![0] bcast_S3300000_S3300000x1_0 (W (Proc.devRef .tc main_v29))))) := by
  dsimp only [hostOps1_1]
  after_results

/-- The first bias as a row. -/
theorem row64_of (W : Valuation τ sig (Elt F)) :
    StableHlo.after (hostOps1_1 (F := F)) W (Proc.devRef .tc main_v38)
      = shapeCast S1x64 (W (Proc.devRef .tc main_arg3)) shapeCasts_S64_S1x64 := by
  dsimp only [hostOps1_1]
  after_results
  rfl

/-- The second aggregation, from any contents `W`. -/
theorem agg40 (W : Valuation τ sig (Elt F)) :
    StableHlo.after (hostOps3_1 (F := F)) W (Proc.devRef .tc main_v47)
      = Host.scatterAdd scatter_S100000x40_S3300000x1_S3300000x40_1_0_0_1
          (broadcastInDim S100000x40 ![] bcast_S_S100000x40 (constant S_ .f32 0x00000000#32))
          (broadcastInDim S3300000x1 ![0] bcast_S3300000_S3300000x1_0 (W (Proc.devRef .tc main_v6)))
          (mulf (W (Proc.devRef .tc main_v41))
            (broadcastInDim S3300000x40 ![0, 1] bcast_S3300000x1_S3300000x40_0_1
              (broadcastInDim S3300000x1 ![0] bcast_S3300000_S3300000x1_0 (W (Proc.devRef .tc main_v29))))) := by
  dsimp only [hostOps3_1]
  after_results

/-- The second bias as a row. -/
theorem row40_of (W : Valuation τ sig (Elt F)) :
    StableHlo.after (hostOps3_1 (F := F)) W (Proc.devRef .tc main_v48)
      = shapeCast S1x40 (W (Proc.devRef .tc main_arg5)) shapeCasts_S40_S1x40 := by
  dsimp only [hostOps3_1]
  after_results
  rfl

/-- The first row lookup writes none of the buffers the aggregation reads beside its result. -/
theorem take64_keeps (W : Valuation τ sig (Elt F)) :
    StableHlo.after (hostOps1 (F := F)) W (Proc.devRef .tc main_v6) = W (Proc.devRef .tc main_v6)
    ∧ StableHlo.after (hostOps1 (F := F)) W (Proc.devRef .tc main_v29) = W (Proc.devRef .tc main_v29)
    ∧ StableHlo.after (hostOps1 (F := F)) W (Proc.devRef .tc main_arg3) = W (Proc.devRef .tc main_arg3) := by
  refine ⟨?_, ?_, ?_⟩ <;> (dsimp only [hostOps1]; after_results)

/-- The second row lookup writes none of the buffers the aggregation reads beside its result. -/
theorem take40_keeps (W : Valuation τ sig (Elt F)) :
    StableHlo.after (hostOps3 (F := F)) W (Proc.devRef .tc main_v6) = W (Proc.devRef .tc main_v6)
    ∧ StableHlo.after (hostOps3 (F := F)) W (Proc.devRef .tc main_v29) = W (Proc.devRef .tc main_v29)
    ∧ StableHlo.after (hostOps3 (F := F)) W (Proc.devRef .tc main_arg5) = W (Proc.devRef .tc main_arg5) := by
  refine ⟨?_, ?_, ?_⟩ <;> (dsimp only [hostOps3]; after_results)

/-- The whole stretch between regions 0 and 1 writes none of the buffers later stretches and regions read. -/
theorem stretch1_keeps (W : Valuation τ sig (Elt F)) :
    StableHlo.after (hostOps1_1 (F := F)) (StableHlo.after (hostOps1 (F := F)) W) (Proc.devRef .tc main_v3) = W (Proc.devRef .tc main_v3)
    ∧ StableHlo.after (hostOps1_1 (F := F)) (StableHlo.after (hostOps1 (F := F)) W) (Proc.devRef .tc main_v6) = W (Proc.devRef .tc main_v6)
    ∧ StableHlo.after (hostOps1_1 (F := F)) (StableHlo.after (hostOps1 (F := F)) W) (Proc.devRef .tc main_v29) = W (Proc.devRef .tc main_v29)
    ∧ StableHlo.after (hostOps1_1 (F := F)) (StableHlo.after (hostOps1 (F := F)) W) (Proc.devRef .tc main_arg4) = W (Proc.devRef .tc main_arg4)
    ∧ StableHlo.after (hostOps1_1 (F := F)) (StableHlo.after (hostOps1 (F := F)) W) (Proc.devRef .tc main_arg5) = W (Proc.devRef .tc main_arg5) := by
  refine ⟨?_, ?_, ?_, ?_, ?_⟩ <;> (dsimp only [hostOps1_1, hostOps1]; after_results)

/-! ## The aggregations are the reference's stages -/

/-- The first aggregation of the reference's own projection, indices and normalisation is its first aggregated array. -/
theorem agg64_ref (x0 : FVec F Cert.ReferenceIdeal.S100000x512 .f32) (x1 : IVec Cert.ReferenceIdeal.S2x3200000 32) (x2 : FVec F Cert.ReferenceIdeal.S512x64 .f32) :
    Host.scatterAdd scatter_S100000x64_S3300000x1_S3300000x64_1_0_0_1
          (broadcastInDim S100000x64 ![] bcast_S_S100000x64 (constant S_ .f32 0x00000000#32))
          (broadcastInDim S3300000x1 ![0] bcast_S3300000_S3300000x1_0 (Cert.ReferenceIdeal.ReadP.val_main_v6 (F := F) x1))
          (mulf (Host.gather gather_S100000x64_S3300000x1_S3300000x64_1_0_n_n_0_1_164 (Cert.ReferenceIdeal.ReadP.val_main_v30 (F := F) x0 x2)
          (broadcastInDim S3300000x1 ![0] bcast_S3300000_S3300000x1_0
            (select (cmpi .slt (Cert.ReferenceIdeal.ReadP.val_main_v3 (F := F) x1) (broadcastInDim S3300000 ![] bcast_S_S3300000 (constantI S_ 32 0#32)))
                    (addi (Cert.ReferenceIdeal.ReadP.val_main_v3 (F := F) x1) (broadcastInDim S3300000 ![] bcast_S_S3300000 (constantI S_ 32 100000#32)))
                    (Cert.ReferenceIdeal.ReadP.val_main_v3 (F := F) x1))))
            (broadcastInDim S3300000x64 ![0, 1] bcast_S3300000x1_S3300000x64_0_1
              (broadcastInDim S3300000x1 ![0] bcast_S3300000_S3300000x1_0 (Cert.ReferenceIdeal.ReadP.val_main_v29 (F := F) x1))))
      = Cert.ReferenceIdeal.ReadP.val_main_v43 (F := F) x0 x1 x2 := rfl

/-- The second aggregation of the reference's own second projection is its second aggregated array. -/
theorem agg40_ref (x0 : FVec F Cert.ReferenceIdeal.S100000x512 .f32) (x1 : IVec Cert.ReferenceIdeal.S2x3200000 32) (x2 : FVec F Cert.ReferenceIdeal.S512x64 .f32)
    (x3 : FVec F Cert.ReferenceIdeal.S64 .f32) (x4 : FVec F Cert.ReferenceIdeal.S64x40 .f32) :
    Host.scatterAdd scatter_S100000x40_S3300000x1_S3300000x40_1_0_0_1
          (broadcastInDim S100000x40 ![] bcast_S_S100000x40 (constant S_ .f32 0x00000000#32))
          (broadcastInDim S3300000x1 ![0] bcast_S3300000_S3300000x1_0 (Cert.ReferenceIdeal.ReadP.val_main_v6 (F := F) x1))
          (mulf (Host.gather gather_S100000x40_S3300000x1_S3300000x40_1_0_n_n_0_1_140 (Cert.ReferenceIdeal.ReadP.val_main_v48 (F := F) x0 x1 x2 x3 x4)
          (broadcastInDim S3300000x1 ![0] bcast_S3300000_S3300000x1_0
            (select (cmpi .slt (Cert.ReferenceIdeal.ReadP.val_main_v3 (F := F) x1) (broadcastInDim S3300000 ![] bcast_S_S3300000 (constantI S_ 32 0#32)))
                    (addi (Cert.ReferenceIdeal.ReadP.val_main_v3 (F := F) x1) (broadcastInDim S3300000 ![] bcast_S_S3300000 (constantI S_ 32 100000#32)))
                    (Cert.ReferenceIdeal.ReadP.val_main_v3 (F := F) x1))))
            (broadcastInDim S3300000x40 ![0, 1] bcast_S3300000x1_S3300000x40_0_1
              (broadcastInDim S3300000x1 ![0] bcast_S3300000_S3300000x1_0 (Cert.ReferenceIdeal.ReadP.val_main_v29 (F := F) x1))))
      = Cert.ReferenceIdeal.ReadP.val_main_v61 (F := F) x0 x1 x2 x3 x4 := rfl

end Cert.Bridge

end
-- ==== Proof.Spec.lean ====
/-
  What the graph-convolution network computes, layer by layer, as whole-array functions over the extended reals
  (the values floats take at the ideal instance: every operation exact, a change of float format the identity).

  * a dense projection: out[r, j] = Σ_k x[r, k] · w[k, j] (over 512 features in the first layer, 64 in the second);
  * bias and rectifier: out[r, j] = max (a[r, j] + b[0, j]) 0;
  * bias and row softmax: with z[r, j] = a[r, j] + b[0, j] and M[r] = max_j z[r, j] (folded from −∞ over the 40
    classes), out[r, j] = e^(z[r, j] − M[r]) / Σ_j' e^(z[r, j'] − M[r]).

  The kernel computes each of these block by block over the node axis; the reference computes each with one
  whole-array operation. Both sides are proved equal to the functions below.
-/
import Idealize.ShloMosaic.PureOps.Ideal
import Idealize.ShloMosaic.PureOps.Ideal.Laws
import Idealize.ShloMosaic.Lib.ValueIdx

noncomputable section

namespace Cert.Bridge

open Idealize.ShloMosaic Idealize.ShloMosaic.ValueIdx

abbrev ShN512 : Shape := ⟨2, ![100000, 512]⟩
abbrev Sh512x64 : Shape := ⟨2, ![512, 64]⟩
abbrev ShN64 : Shape := ⟨2, ![100000, 64]⟩
abbrev Sh1x64 : Shape := ⟨2, ![1, 64]⟩
abbrev Sh64x40 : Shape := ⟨2, ![64, 40]⟩
abbrev ShN40 : Shape := ⟨2, ![100000, 40]⟩
abbrev Sh1x40 : Shape := ⟨2, ![1, 40]⟩

/-- The first layer's projection: out[r, j] = Σ_k x[r, k] · w[k, j], k over the 512 input features. -/
def proj1 (x : FVec Ideal ShN512 .f32) (w : FVec Ideal Sh512x64 .f32) : FVec Ideal ShN64 .f32 :=
  fun i => ∑ k : Fin 512, x (ix2 (i 0) k) * w (ix2 k (i 1))

/-- The second layer's projection: out[r, j] = Σ_k h[r, k] · w[k, j], k over the 64 hidden features. -/
def proj2 (h : FVec Ideal ShN64 .f32) (w : FVec Ideal Sh64x40 .f32) : FVec Ideal ShN40 .f32 :=
  fun i => ∑ k : Fin 64, h (ix2 (i 0) k) * w (ix2 k (i 1))

/-- Bias and rectifier: out[r, j] = max (a[r, j] + b[0, j]) 0 (the zero is the float word 0x00000000 read at the ideal
    instance). -/
def biasRelu (a : FVec Ideal ShN64 .f32) (b : FVec Ideal Sh1x64 .f32) : FVec Ideal ShN64 .f32 :=
  fun i => max (a i + b (ix2 (0 : Fin 1) (i 1))) (Ideal.ofBits .f32 0x00000000#32)

/-- The logits of row r: z[r, j] = a[r, j] + b[0, j]. -/
def smZ (a : FVec Ideal ShN40 .f32) (b : FVec Ideal Sh1x40 .f32) (r : Fin 100000) (j : Fin 40) : EReal :=
  a (ix2 r j) + b (ix2 (0 : Fin 1) j)

/-- The row's largest logit, folded from −∞ (the float word 0xFF800000) over the 40 classes. -/
def smMax (a : FVec Ideal ShN40 .f32) (b : FVec Ideal Sh1x40 .f32) (r : Fin 100000) : EReal :=
  (Finset.univ : Finset (Fin 40)).fold max (Ideal.ofBits .f32 0xFF800000#32) (smZ a b r)

/-- e^(z[r, j] − M[r]). -/
def smE (a : FVec Ideal ShN40 .f32) (b : FVec Ideal Sh1x40 .f32) (r : Fin 100000) (j : Fin 40) : EReal :=
  Ideal.exp (smZ a b r j - smMax a b r)

/-- The row's normaliser Σ_j e^(z[r, j] − M[r]). -/
def smSum (a : FVec Ideal ShN40 .f32) (b : FVec Ideal Sh1x40 .f32) (r : Fin 100000) : EReal :=
  ∑ j : Fin 40, smE a b r j

/-- Bias and row softmax: out[r, j] = e^(z[r, j] − M[r]) / Σ_j' e^(z[r, j'] − M[r]), the quotient the ideal instance's
    division. -/
def softmaxRows (a : FVec Ideal ShN40 .f32) (b : FVec Ideal Sh1x40 .f32) : FVec Ideal ShN40 .f32 :=
  fun i => Ideal.div (smE a b (i 0) (i 1)) (smSum a b (i 0))

end Cert.Bridge

end
-- ==== Proof.ProjK.lean ====
/-
  The kernel's two dense projections, region by region. Each region walks the node axis in blocks of 5000 rows; at a
  block it multiplies the block of the left operand by the whole right operand on the matrix unit into a zero
  accumulator (the narrowing of both operands to bf16 is the identity at the ideal instance), and writes the product
  back as the same block of the output. So row r of the output array, which lies in block r / 5000, ends holding
  Σ_k left[r, k] · right[k, j]: the whole-array projection, whatever the tiling.

  Per region, in this order: the block product read at an entry (p, q) is Σ_k x0[p, k] · x1[k, q], the contraction's
  one-axis index identified with k; at point t the left block is rows 5000·t … 5000·t + 4999 of the left array (all
  its columns) and the right block is the whole right array, so the product's entry (p, q) is the projection's entry
  (5000·t + p, q), which is where entry (p, q) of the output's block t sits in the output array; every index (r, j) of
  the output array is in the block of point r / 5000, and every point writes its block back, so the array ends holding
  the projection everywhere.
-/
import proofs.«420683_j33337536151790_2_alg».proof.Proof.Gen.KernelIdeal.Frame
import proofs.«420683_j33337536151790_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Idealize.ShloMosaic Idealize.ShloMosaic.TcCoe Idealize.SL.Sem Idealize.ShloMosaic.ValueIdx

section
open Cert.KernelIdeal Cert.KernelIdeal.Gen

/-- The zero offsets of a whole-buffer access, however spelt. -/
theorem zero_offsets : (![0, 0] : Fin 2 → Nat) = fun _ => 0 :=
  funext fun a => by match a with | ⟨0, _⟩ => rfl | ⟨1, _⟩ => rfl

/-! ## Region 0: a block of x times W1 -/

/-- The left operand's row coordinate at output index i is i's row. -/
theorem lhs_blk0_0 (i : S5000x64.Idx) (q : dot_S5000x512_S512x64_S5000x64_1_0_0_1_n_n.contr.Idx) :
    (dot_S5000x512_S512x64_S5000x64_1_0_0_1_n_n.lhsIdx i q 0).val = (i 0).val := by
  unfold DotDims.lhsIdx
  rw [dif_neg (show ¬(0 : Fin S5000x512.rank) ∈ dot_S5000x512_S512x64_S5000x64_1_0_0_1_n_n.lhsBatch by decide), dif_pos (show (0 : Fin S5000x512.rank) ∈ dot_S5000x512_S512x64_S5000x64_1_0_0_1_n_n.lhsNonContracting by decide)]
  rfl
/-- The left operand's column coordinate is the contraction index. -/
theorem lhs_blk0_1 (i : S5000x64.Idx) (q : dot_S5000x512_S512x64_S5000x64_1_0_0_1_n_n.contr.Idx) :
    (dot_S5000x512_S512x64_S5000x64_1_0_0_1_n_n.lhsIdx i q 1).val = (q ⟨0, by decide⟩).val :=
  dot_S5000x512_S512x64_S5000x64_1_0_0_1_n_n.lhsIdx_val_of_single rfl i q
/-- The right operand's row coordinate is the contraction index. -/
theorem rhs_blk0_0 (i : S5000x64.Idx) (q : dot_S5000x512_S512x64_S5000x64_1_0_0_1_n_n.contr.Idx) :
    (dot_S5000x512_S512x64_S5000x64_1_0_0_1_n_n.rhsIdx i q 0).val = (q ⟨0, by decide⟩).val :=
  dot_S5000x512_S512x64_S5000x64_1_0_0_1_n_n.rhsIdx_val_of_single rfl i q
/-- The right operand's column coordinate at output index i is i's column. -/
theorem rhs_blk0_1 (i : S5000x64.Idx) (q : dot_S5000x512_S512x64_S5000x64_1_0_0_1_n_n.contr.Idx) :
    (dot_S5000x512_S512x64_S5000x64_1_0_0_1_n_n.rhsIdx i q 1).val = (i 1).val := by
  unfold DotDims.rhsIdx
  rw [dif_neg (show ¬(1 : Fin S512x64.rank) ∈ dot_S5000x512_S512x64_S5000x64_1_0_0_1_n_n.rhsBatch by decide), dif_pos (show (1 : Fin S512x64.rank) ∈ dot_S5000x512_S512x64_S5000x64_1_0_0_1_n_n.rhsNonContracting by decide)]
  rfl

/-- The block product at entry (p, q): Σ_k x0[p, k] · x1[k, q] over the 512 features (both narrowings the identity,
    the accumulator zero). -/
theorem blockProduct0_apply (x0 : Vec Ideal S5000x512 .f32) (x1 : Vec Ideal S512x64 .f32) (p : Fin 5000) (q : Fin 64) :
    k0_pay1 (F := Ideal) x0 x1 (ix2 p q) = ∑ k : Fin 512, x0 (ix2 p k) * x1 (ix2 k q) := by
  unfold k0_pay1
  simp only [matmul]
  refine (Ideal.matmul_constant_zero_apply dot_S5000x512_S512x64_S5000x64_1_0_0_1_n_n none _ _ (ix2 p q)).trans ?_
  rw [← Equiv.sum_comp (ValueIdx.contrEquiv1 dot_S5000x512_S512x64_S5000x64_1_0_0_1_n_n 512 rfl rfl).symm]
  refine Finset.sum_congr rfl fun k _ => ?_
  have hk := ValueIdx.contrEquiv1_symm_val dot_S5000x512_S512x64_S5000x64_1_0_0_1_n_n 512 rfl rfl k
  have el : dot_S5000x512_S512x64_S5000x64_1_0_0_1_n_n.lhsIdx (ix2 p q) ((ValueIdx.contrEquiv1 dot_S5000x512_S512x64_S5000x64_1_0_0_1_n_n 512 rfl rfl).symm k) = ix2 p k := funext fun a => Fin.ext (by
    match a with
    | ⟨0, _⟩ => exact lhs_blk0_0 _ _
    | ⟨1, _⟩ => exact (lhs_blk0_1 _ _).trans hk)
  have er : dot_S5000x512_S512x64_S5000x64_1_0_0_1_n_n.rhsIdx (ix2 p q) ((ValueIdx.contrEquiv1 dot_S5000x512_S512x64_S5000x64_1_0_0_1_n_n 512 rfl rfl).symm k) = ix2 k q := funext fun a => Fin.ext (by
    match a with
    | ⟨0, _⟩ => exact (rhs_blk0_0 _ _).trans hk
    | ⟨1, _⟩ => exact rhs_blk0_1 _ _)
  rw [el, er]
  rfl

/-- The block product is the block of the whole-array projection, once each operand block is known to be the operand
    array read along row r (the left one) and unmoved (the right one). -/
theorem blockProduct0_eq_proj1 (A : FVec Ideal ShN512 .f32) (W : FVec Ideal Sh512x64 .f32)
    (x0 : Vec Ideal S5000x512 .f32) (x1 : Vec Ideal S512x64 .f32) (p : Fin 5000) (q : Fin 64) (r : Fin 100000)
    (h0 : ∀ k : Fin 512, x0 (ix2 p k) = A (ix2 r k)) (h1 : ∀ k : Fin 512, x1 (ix2 k q) = W (ix2 k q)) :
    k0_pay1 (F := Ideal) x0 x1 (ix2 p q) = proj1 A W (ix2 r q) := by
  rw [blockProduct0_apply]
  show _ = ∑ k : Fin 512, A (ix2 r k) * W (ix2 k q)
  exact Finset.sum_congr rfl fun k _ => by rw [h0 k, h1 k]

/-- The printed index maps over the 20 points: the left operand's block moves with the output's along the node axis
    and spans all 512 features, the right operand's block is the whole matrix, and the output's block at point t is
    block t of the node axis, all 64 columns. -/
theorem blockIndex0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0
    ∧ t.val ≤ 19 :=
  (by decide +kernel : ∀ t : Fin grid0.N, _)

/-- What point t writes back is block t of the first projection of the arrays as the region finds them. -/
theorem writtenBack0_eq (V : (c : Dev nD) → (b : Ref sig .tc) → Buf (Elt Ideal) ((c : Thread nD τ).loc b)) (c : Dev nD)
    (t : Fin cfg0.N) :
    (dat0 (F := Ideal) V c).flushed 2 t
      = ((cfg0.win 2).blk t).view.read (Elt Ideal) (proj1 (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x512) zero_offsets, View.ld_unit_zero (S := S512x64) zero_offsets]
  obtain ⟨e0, e1, e2, e3, e4, e5, e6⟩ := blockIndex0 t
  funext j
  obtain ⟨p, q, rfl⟩ : ∃ (p : Fin 5000) (q : Fin 64), j = ix2 p q := ⟨j 0, j 1, eq_ix2 j⟩
  have hp : p.val < 5000 := p.isLt
  have hrow : win0_2.index t (0 : Fin 2) * 5000 + 1 * p.val < 100000 := by omega
  have hemb : ((cfg0.win 2).blk t).view.emb (ix2 p q) = ix2 (⟨win0_2.index t (0 : Fin 2) * 5000 + 1 * p.val, hrow⟩ : Fin 100000) q := by
    funext a; apply Fin.ext
    match a with
    | ⟨0, _⟩ => rfl
    | ⟨1, _⟩ => show win0_2.index t (1 : Fin 2) * 64 + 1 * q.val = q.val; omega
  show k0_pay1 (F := Ideal) (iblk0 V c 0 t) (iblk0 V c 1 t) (ix2 p q) = proj1 (V c main_arg0) (V c main_arg2) (((cfg0.win 2).blk t).view.emb (ix2 p q))
  rw [hemb]
  refine blockProduct0_eq_proj1 (V c main_arg0) (V c main_arg2) (iblk0 V c 0 t) (iblk0 V c 1 t) p q ⟨win0_2.index t (0 : Fin 2) * 5000 + 1 * p.val, hrow⟩ ?_ ?_
  · intro k
    show V c main_arg0 (((cfg0.win 0).blk t).view.emb (ix2 p k)) = V c main_arg0 (ix2 (⟨win0_2.index t (0 : Fin 2) * 5000 + 1 * p.val, hrow⟩ : Fin 100000) k)
    refine congrArg (V c main_arg0) (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 512 + 1 * k.val = k.val; omega
  · intro k
    show V c main_arg2 (((cfg0.win 1).blk t).view.emb (ix2 k q)) = V c main_arg2 (ix2 k q)
    refine congrArg (V c main_arg2) (funext fun a => Fin.ext ?_)
    match a with
    | ⟨0, _⟩ => show win0_1.index t (0 : Fin 2) * 512 + 1 * k.val = k.val; omega
    | ⟨1, _⟩ => show win0_1.index t (1 : Fin 2) * 64 + 1 * q.val = q.val; omega

/-- An index of the output array is in point t's block iff each coordinate is in the block's range on its axis. -/
theorem mem_block0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- Row r of the output lies in the block of point r / 5000, which is written back: the 20 blocks tile the array. -/
theorem covered0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, by show (i 0).val / 5000 < grid0.N; rw [N_0]; omega⟩, rfl⟩
  obtain ⟨e0, e1, e2, e3, e4, e5, e6⟩ := blockIndex0 t
  refine ⟨t, flush0_2 t, ?_⟩
  rw [mem_block0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- Region 0 (x · W1, 20 blocks of 5000 rows, contraction over 512 features): the output array after the region is the
    first projection of the two input arrays as the region finds them. -/
theorem region0_value (V : (c : Dev nD) → (b : Ref sig .tc) → Buf (Elt Ideal) ((c : Thread nD τ).loc b)) (c : Dev nD) :
    (dat0 (F := Ideal) V c).arrAt 2 cfg0.N = proj1 (V c main_arg0) (V c main_arg2) :=
  (dat0 (F := Ideal) V c).arrAt_eq_of_cover 2 (proj1 (V c main_arg0) (V c main_arg2))
    (fun t _ => writtenBack0_eq V c t) covered0

/-! ## Region 2: a block of h times W2 -/

/-- The left operand's row coordinate at output index i is i's row. -/
theorem lhs_blk2_0 (i : S5000x40.Idx) (q : dot_S5000x64_S64x40_S5000x40_1_0_0_1_n_n.contr.Idx) :
    (dot_S5000x64_S64x40_S5000x40_1_0_0_1_n_n.lhsIdx i q 0).val = (i 0).val := by
  unfold DotDims.lhsIdx
  rw [dif_neg (show ¬(0 : Fin S5000x64.rank) ∈ dot_S5000x64_S64x40_S5000x40_1_0_0_1_n_n.lhsBatch by decide), dif_pos (show (0 : Fin S5000x64.rank) ∈ dot_S5000x64_S64x40_S5000x40_1_0_0_1_n_n.lhsNonContracting by decide)]
  rfl
/-- The left operand's column coordinate is the contraction index. -/
theorem lhs_blk2_1 (i : S5000x40.Idx) (q : dot_S5000x64_S64x40_S5000x40_1_0_0_1_n_n.contr.Idx) :
    (dot_S5000x64_S64x40_S5000x40_1_0_0_1_n_n.lhsIdx i q 1).val = (q ⟨0, by decide⟩).val :=
  dot_S5000x64_S64x40_S5000x40_1_0_0_1_n_n.lhsIdx_val_of_single rfl i q
/-- The right operand's row coordinate is the contraction index. -/
theorem rhs_blk2_0 (i : S5000x40.Idx) (q : dot_S5000x64_S64x40_S5000x40_1_0_0_1_n_n.contr.Idx) :
    (dot_S5000x64_S64x40_S5000x40_1_0_0_1_n_n.rhsIdx i q 0).val = (q ⟨0, by decide⟩).val :=
  dot_S5000x64_S64x40_S5000x40_1_0_0_1_n_n.rhsIdx_val_of_single rfl i q
/-- The right operand's column coordinate at output index i is i's column. -/
theorem rhs_blk2_1 (i : S5000x40.Idx) (q : dot_S5000x64_S64x40_S5000x40_1_0_0_1_n_n.contr.Idx) :
    (dot_S5000x64_S64x40_S5000x40_1_0_0_1_n_n.rhsIdx i q 1).val = (i 1).val := by
  unfold DotDims.rhsIdx
  rw [dif_neg (show ¬(1 : Fin S64x40.rank) ∈ dot_S5000x64_S64x40_S5000x40_1_0_0_1_n_n.rhsBatch by decide), dif_pos (show (1 : Fin S64x40.rank) ∈ dot_S5000x64_S64x40_S5000x40_1_0_0_1_n_n.rhsNonContracting by decide)]
  rfl

/-- The block product at entry (p, q): Σ_k x0[p, k] · x1[k, q] over the 64 hidden features (the recast of the left
    block to its own shape and both narrowings the identity, the accumulator zero). -/
theorem blockProduct2_apply (x0 : Vec Ideal S5000x64 .f32) (x1 : Vec Ideal S64x40 .f32) (p : Fin 5000) (q : Fin 40) :
    k2_pay1 (F := Ideal) x0 x1 (ix2 p q) = ∑ k : Fin 64, x0 (ix2 p k) * x1 (ix2 k q) := by
  unfold k2_pay1
  simp only [matmul, shapeCast_self]
  refine (Ideal.matmul_constant_zero_apply dot_S5000x64_S64x40_S5000x40_1_0_0_1_n_n none _ _ (ix2 p q)).trans ?_
  rw [← Equiv.sum_comp (ValueIdx.contrEquiv1 dot_S5000x64_S64x40_S5000x40_1_0_0_1_n_n 64 rfl rfl).symm]
  refine Finset.sum_congr rfl fun k _ => ?_
  have hk := ValueIdx.contrEquiv1_symm_val dot_S5000x64_S64x40_S5000x40_1_0_0_1_n_n 64 rfl rfl k
  have el : dot_S5000x64_S64x40_S5000x40_1_0_0_1_n_n.lhsIdx (ix2 p q) ((ValueIdx.contrEquiv1 dot_S5000x64_S64x40_S5000x40_1_0_0_1_n_n 64 rfl rfl).symm k) = ix2 p k := funext fun a => Fin.ext (by
    match a with
    | ⟨0, _⟩ => exact lhs_blk2_0 _ _
    | ⟨1, _⟩ => exact (lhs_blk2_1 _ _).trans hk)
  have er : dot_S5000x64_S64x40_S5000x40_1_0_0_1_n_n.rhsIdx (ix2 p q) ((ValueIdx.contrEquiv1 dot_S5000x64_S64x40_S5000x40_1_0_0_1_n_n 64 rfl rfl).symm k) = ix2 k q := funext fun a => Fin.ext (by
    match a with
    | ⟨0, _⟩ => exact (rhs_blk2_0 _ _).trans hk
    | ⟨1, _⟩ => exact rhs_blk2_1 _ _)
  rw [el, er]
  rfl

/-- The block product is the block of the whole-array projection, once each operand block is known to be the operand
    array read along row r (the left one) and unmoved (the right one). -/
theorem blockProduct2_eq_proj2 (H : FVec Ideal ShN64 .f32) (W : FVec Ideal Sh64x40 .f32)
    (x0 : Vec Ideal S5000x64 .f32) (x1 : Vec Ideal S64x40 .f32) (p : Fin 5000) (q : Fin 40) (r : Fin 100000)
    (h0 : ∀ k : Fin 64, x0 (ix2 p k) = H (ix2 r k)) (h1 : ∀ k : Fin 64, x1 (ix2 k q) = W (ix2 k q)) :
    k2_pay1 (F := Ideal) x0 x1 (ix2 p q) = proj2 H W (ix2 r q) := by
  rw [blockProduct2_apply]
  show _ = ∑ k : Fin 64, H (ix2 r k) * W (ix2 k q)
  exact Finset.sum_congr rfl fun k _ => by rw [h0 k, h1 k]

/-- The printed index maps over the 20 points: the left operand's block moves with the output's along the node axis
    and spans all 64 hidden features, the right operand's block is the whole matrix, and the output's block at point t
    is block t of the node axis, all 40 columns. -/
theorem blockIndex2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0
    ∧ t.val ≤ 19 :=
  (by decide +kernel : ∀ t : Fin grid2.N, _)

/-- What point t writes back is block t of the second projection of the arrays as the region finds them. -/
theorem writtenBack2_eq (V : (c : Dev nD) → (b : Ref sig .tc) → Buf (Elt Ideal) ((c : Thread nD τ).loc b)) (c : Dev nD)
    (t : Fin cfg2.N) :
    (dat2 (F := Ideal) V c).flushed 2 t
      = ((cfg2.win 2).blk t).view.read (Elt Ideal) (proj2 (V c main_v39) (V c main_arg4)) := by
  show (cfg2.win 2).cut (grid2.coords t) ((dat2 V c).after 2 t) = _
  rw [after2_2]
  unfold out2_2
  rw [View.canon_unit_zero zero_offsets]
  simp only [View.ld_unit_zero (S := S5000x64) zero_offsets, View.ld_unit_zero (S := S64x40) zero_offsets]
  obtain ⟨e0, e1, e2, e3, e4, e5, e6⟩ := blockIndex2 t
  funext j
  obtain ⟨p, q, rfl⟩ : ∃ (p : Fin 5000) (q : Fin 40), j = ix2 p q := ⟨j 0, j 1, eq_ix2 j⟩
  have hp : p.val < 5000 := p.isLt
  have hrow : win2_2.index t (0 : Fin 2) * 5000 + 1 * p.val < 100000 := by omega
  have hemb : ((cfg2.win 2).blk t).view.emb (ix2 p q) = ix2 (⟨win2_2.index t (0 : Fin 2) * 5000 + 1 * p.val, hrow⟩ : Fin 100000) q := by
    funext a; apply Fin.ext
    match a with
    | ⟨0, _⟩ => rfl
    | ⟨1, _⟩ => show win2_2.index t (1 : Fin 2) * 40 + 1 * q.val = q.val; omega
  show k2_pay1 (F := Ideal) (iblk2 V c 0 t) (iblk2 V c 1 t) (ix2 p q) = proj2 (V c main_v39) (V c main_arg4) (((cfg2.win 2).blk t).view.emb (ix2 p q))
  rw [hemb]
  refine blockProduct2_eq_proj2 (V c main_v39) (V c main_arg4) (iblk2 V c 0 t) (iblk2 V c 1 t) p q ⟨win2_2.index t (0 : Fin 2) * 5000 + 1 * p.val, hrow⟩ ?_ ?_
  · intro k
    show V c main_v39 (((cfg2.win 0).blk t).view.emb (ix2 p k)) = V c main_v39 (ix2 (⟨win2_2.index t (0 : Fin 2) * 5000 + 1 * p.val, hrow⟩ : Fin 100000) k)
    refine congrArg (V c main_v39) (funext fun a => Fin.ext ?_)
    match a with
    | ⟨0, _⟩ => show win2_0.index t (0 : Fin 2) * 5000 + 1 * p.val = win2_2.index t (0 : Fin 2) * 5000 + 1 * p.val; omega
    | ⟨1, _⟩ => show win2_0.index t (1 : Fin 2) * 64 + 1 * k.val = k.val; omega
  · intro k
    show V c main_arg4 (((cfg2.win 1).blk t).view.emb (ix2 k q)) = V c main_arg4 (ix2 k q)
    refine congrArg (V c main_arg4) (funext fun a => Fin.ext ?_)
    match a with
    | ⟨0, _⟩ => show win2_1.index t (0 : Fin 2) * 64 + 1 * k.val = k.val; omega
    | ⟨1, _⟩ => show win2_1.index t (1 : Fin 2) * 40 + 1 * q.val = q.val; omega

/-- An index of the output array is in point t's block iff each coordinate is in the block's range on its axis. -/
theorem mem_block2 (t : Fin cfg2.N) (i : S100000x40.Idx) :
    i ∈ ((cfg2.win 2).blk t).view.set ↔ ∀ a : Fin 2, win2_2.index t a * S5000x40.size a ≤ (i a).val ∧ (i a).val < win2_2.index t a * S5000x40.size a + S5000x40.size a := by
  show i ∈ ((View.whole main_v40).slice (win2_2.rect t)).set ↔ _
  rw [View.set_slice_whole, Rect.mem_set_unit]
  exact Iff.rfl

/-- Row r of the output lies in the block of point r / 5000, which is written back: the 20 blocks tile the array. -/
theorem covered2 (i : S100000x40.Idx) :
    ∃ t : Fin cfg2.N, (cfg2.win 2).flush t = true ∧ i ∈ ((cfg2.win 2).blk t).view.set := by
  have hi0 : (i 0).val < 100000 := (i 0).isLt
  have hi1 : (i 1).val < 40 := (i 1).isLt
  obtain ⟨t, ht⟩ : ∃ t : Fin cfg2.N, t.val = (i 0).val / 5000 :=
    ⟨⟨(i 0).val / 5000, by show (i 0).val / 5000 < grid2.N; rw [N_2]; omega⟩, rfl⟩
  obtain ⟨e0, e1, e2, e3, e4, e5, e6⟩ := blockIndex2 t
  refine ⟨t, flush2_2 t, ?_⟩
  rw [mem_block2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 40 ≤ (i 1).val ∧ (i 1).val < win2_2.index t (1 : Fin 2) * 40 + 40; omega

/-- Region 2 (h · W2, 20 blocks of 5000 rows, contraction over 64 hidden features): the output array after the region
    is the second projection of the two input arrays as the region finds them. -/
theorem region2_value (V : (c : Dev nD) → (b : Ref sig .tc) → Buf (Elt Ideal) ((c : Thread nD τ).loc b)) (c : Dev nD) :
    (dat2 (F := Ideal) V c).arrAt 2 cfg2.N = proj2 (V c main_v39) (V c main_arg4) :=
  (dat2 (F := Ideal) V c).arrAt_eq_of_cover 2 (proj2 (V c main_v39) (V c main_arg4))
    (fun t _ => writtenBack2_eq V c t) covered2

end

end Cert.Bridge

end
-- ==== Proof.Relu.lean ====
/-
  Bias and rectifier, on both sides. The kernel's region 1 walks the node axis in blocks of 10000 rows and at a block
  stores max (a + b, 0), the one bias row b broadcast down the block's rows; the reference adds the bias broadcast
  over the whole array and takes the maximum with a zero array. Element by element both are max (a[r, j] + b[0, j]) 0.
  The bias row itself is the length-64 (or length-40) bias read as a one-row matrix: the kernel's program reshapes it,
  the reference broadcasts it along a new leading axis; entry (0, j) of either is entry j of the bias.

  On the kernel's side the argument is by blocks. Point t of the grid reads rows [10000 t, 10000 t + 10000) of the
  aggregated array and the whole one-row bias, and writes back the same rows of the output; entry (p, q) of what it
  writes is max (a[10000 t + p, q] + b[0, q]) 0, which is entry (10000 t + p, q) of the whole-array function. Every row r
  lies in the block of point r / 10000, so the ten blocks fill the output array and it ends holding that function.
-/
import proofs.«420683_j33337536151790_2_alg».proof.Proof.Gen.KernelIdeal.Frame
import proofs.«420683_j33337536151790_2_alg».proof.Proof.RefRead
import proofs.«420683_j33337536151790_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Idealize.ShloMosaic Idealize.ShloMosaic.TcCoe Idealize.SL.Sem Idealize.ShloMosaic.ValueIdx

section
open Cert.KernelIdeal Cert.KernelIdeal.Gen

/-- The offsets of an access to a whole block are zero on both axes. -/
private theorem zero_off : (![0, 0] : Fin 2 → Nat) = fun _ => 0 :=
  funext fun a => match a with | ⟨0, _⟩ => rfl | ⟨1, _⟩ => rfl

/-- Entry (p, q) of what the body stores: the block's entry plus the bias row's entry q, against zero. -/
private theorem stored_apply (x0 : Vec Ideal S10000x64 .f32) (x1 : Vec Ideal S1x64 .f32) (p : Fin 10000) (q : Fin 64) :
    k1_pay1 (F := Ideal) x0 x1 (ix2 p q) = max (x0 (ix2 p q) + x1 (ix2 (0 : Fin 1) q)) (Ideal.ofBits .f32 0x00000000#32) := by
  unfold k1_pay1
  rw [shapeCast_self, shapeCast_self]
  refine congrArg (fun z => max (x0 (ix2 p q) + z) (Ideal.ofBits .f32 0x00000000#32)) ?_
  exact broadcastTo_1b_ab_apply x1 broadcasts_S1x64_S10000x64 p q

/-- The same at any index j of the block: the bias entry is the one in j's column. -/
private theorem stored_at (x0 : Vec Ideal S10000x64 .f32) (x1 : Vec Ideal S1x64 .f32) (j : S10000x64.Idx) :
    k1_pay1 (F := Ideal) x0 x1 j = max (x0 j + x1 (ix2 (0 : Fin 1) (j 1))) (Ideal.ofBits .f32 0x00000000#32) := by
  obtain ⟨p, q, rfl⟩ : ∃ (p : Fin 10000) (q : Fin 64), j = ix2 p q := ⟨j 0, j 1, eq_ix2 j⟩
  exact stored_apply x0 x1 p q

/-- The block indices at point t: windows 0 and 2 are at block row t, the bias window always at its one block. -/
private theorem block_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 10 :=
  (by decide +kernel : ∀ t : Fin grid1.N, _)

/-- Block t of the whole-array function, entry by entry: the input block is rows [10000 t, 10000 t + 10000) of the
    aggregated array, the same rows as the output block's, and the bias block is the whole bias row. -/
private theorem block_of_whole (A : FVec Ideal ShN64 .f32) (B : FVec Ideal Sh1x64 .f32) (t : Fin cfg1.N) (y : S10000x64.Idx) :
    max (A (((cfg1.win 0).blk t).view.emb y) + B (((cfg1.win 1).blk t).view.emb (ix2 (0 : Fin 1) (y 1)))) (Ideal.ofBits .f32 0x00000000#32)
      = biasRelu A B (((cfg1.win 2).blk t).view.emb y) := by
  obtain ⟨e0, e1, e2, e3, e4, e5, ht⟩ := block_index t
  have h0 : ((cfg1.win 0).blk t).view.emb y = ((cfg1.win 2).blk t).view.emb y := by
    funext a; apply Fin.ext
    match a with
    | ⟨0, _⟩ => show win1_0.index t (0 : Fin 2) * 10000 + 1 * (y 0).val = win1_2.index t (0 : Fin 2) * 10000 + 1 * (y 0).val; omega
    | ⟨1, _⟩ => show win1_0.index t (1 : Fin 2) * 64 + 1 * (y 1).val = win1_2.index t (1 : Fin 2) * 64 + 1 * (y 1).val; omega
  have h1 : ((cfg1.win 1).blk t).view.emb (ix2 (0 : Fin 1) (y 1)) = ix2 (0 : Fin 1) ((((cfg1.win 2).blk t).view.emb y) 1) := by
    funext a; apply Fin.ext
    match a with
    | ⟨0, _⟩ => show win1_1.index t (0 : Fin 2) * 1 + 1 * 0 = 0; omega
    | ⟨1, _⟩ => show win1_1.index t (1 : Fin 2) * 64 + 1 * (y 1).val = win1_2.index t (1 : Fin 2) * 64 + 1 * (y 1).val; omega
  rw [h0, h1]
  rfl

/-- What point t writes back is block t of bias-and-rectifier of the arrays the region finds. -/
private theorem written_back (V : (c : Dev nD) → (b : Ref sig .tc) → Buf (Elt Ideal) ((c : Thread nD τ).loc b)) (c : Dev nD) (t : Fin cfg1.N) :
    (dat1 (F := Ideal) V c).flushed 2 t = ((cfg1.win 2).blk t).view.read (Elt Ideal) (biasRelu (V c main_v37) (V c main_v38)) := by
  show (cfg1.win 2).cut (grid1.coords t) ((dat1 V c).after 2 t) = _
  rw [after1_2]
  unfold out1_2
  rw [View.canon_unit_zero zero_off]
  simp only [View.ld_unit_zero (S := S10000x64) zero_off, View.ld_unit_zero (S := S1x64) zero_off]
  funext y
  refine (stored_at (iblk1 V c 0 t) (iblk1 V c 1 t) y).trans ?_
  exact block_of_whole (V c main_v37) (V c main_v38) t y

/-- An index of the output array is in point t's block iff each coordinate is in the block's range on its axis. -/
private theorem in_block (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v39).slice (win1_2.rect t)).set ↔ _
  rw [View.set_slice_whole, Rect.mem_set_unit]
  exact Iff.rfl

/-- Row r of the output array lies in the block of point r / 10000, which is written back. -/
private theorem covered (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : grid1.N = 10 := N_1
  obtain ⟨t, hq⟩ : ∃ t : Fin cfg1.N, t.val = (i 0).val / 10000 :=
    ⟨⟨(i 0).val / 10000, by show (i 0).val / 10000 < grid1.N; rw [hN]; omega⟩, rfl⟩
  obtain ⟨e0, e1, e2, e3, e4, e5, ht⟩ := block_index t
  refine ⟨t, flush1_2 t, ?_⟩
  rw [in_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- Region 1 (10 blocks of 10000 rows): the output array after the region is bias-and-rectifier of the aggregated array
    and the bias row as the region finds them. -/
theorem region1_value (V : (c : Dev nD) → (b : Ref sig .tc) → Buf (Elt Ideal) ((c : Thread nD τ).loc b)) (c : Dev nD) :
    (dat1 (F := Ideal) V c).arrAt 2 cfg1.N = biasRelu (V c main_v37) (V c main_v38) :=
  (dat1 (F := Ideal) V c).arrAt_eq_of_cover 2 (biasRelu (V c main_v37) (V c main_v38)) (fun t _ => written_back V c t) covered

/-- The kernel program's reshape of the 64 biases to one row is the reference's broadcast of them along a new leading axis. -/
theorem row64 (x3 : FVec Ideal S64 .f32) :
    shapeCast S1x64 x3 shapeCasts_S64_S1x64 = Cert.ReferenceIdeal.ReadP.val_main_v44 (F := Ideal) x3 := by
  funext i
  obtain ⟨u, j, rfl⟩ : ∃ (u : Fin 1) (j : Fin 64), i = ix2 u j := ⟨i 0, i 1, eq_ix2 i⟩
  rw [Cert.ReferenceIdeal.ReadP.val_main_v44_apply]
  refine (shapeCast_a_1a_apply x3 shapeCasts_S64_S1x64 u j).trans (congrArg x3 ?_)
  funext a
  match a with
  | ⟨0, _⟩ => rfl

/-- The same for the 40 biases of the second layer. -/
theorem row40 (x5 : FVec Ideal S40 .f32) :
    shapeCast S1x40 x5 shapeCasts_S40_S1x40 = Cert.ReferenceIdeal.ReadP.val_main_v62 (F := Ideal) x5 := by
  funext i
  obtain ⟨u, j, rfl⟩ : ∃ (u : Fin 1) (j : Fin 40), i = ix2 u j := ⟨i 0, i 1, eq_ix2 i⟩
  rw [Cert.ReferenceIdeal.ReadP.val_main_v62_apply]
  refine (shapeCast_a_1a_apply x5 shapeCasts_S40_S1x40 u j).trans (congrArg x5 ?_)
  funext a
  match a with
  | ⟨0, _⟩ => rfl
end

section
open Cert.ReferenceIdeal Cert.ReferenceIdeal.ReadP

/-- The reference's first layer after its rectifier is bias-and-rectifier of its aggregated array and its bias row. -/
theorem ref_biasRelu (x0 : FVec Ideal S100000x512 .f32) (x1 : IVec S2x3200000 32) (x2 : FVec Ideal S512x64 .f32) (x3 : FVec Ideal S64 .f32) :
    val_main_v47 (F := Ideal) x0 x1 x2 x3 = biasRelu (val_main_v43 (F := Ideal) x0 x1 x2) (val_main_v44 (F := Ideal) x3) := by
  funext i
  have e : idx_main_v45 i = ix2 (0 : Fin 1) (i 1) := by
    funext a
    match a with
    | ⟨0, _⟩ => rfl
    | ⟨1, _⟩ => rfl
  rw [val_main_v47_apply, val_main_v46_apply, val_main_v45_apply, val_main_call1_v0_apply, val_main_call1_cst_apply, e]
  rfl
end

end Cert.Bridge

end
-- ==== Proof.SoftmaxK.lean ====
/-
  The kernel's bias-and-softmax region. It walks the node axis in blocks of 10000 rows; at a block it adds the bias row
  to every row, takes each row's maximum over the 40 classes (folded from −∞), subtracts it, exponentiates, sums each
  row's exponentials and divides. Every step is row-local, so row r of the output array, which lies in block r / 10000,
  ends holding the softmax of row r of (a + b): the whole-array row softmax, whatever the tiling.

  The steps: the body's result read at an index (p, q) of a block is e^(z[p, q] − M[p]) / Σ_j e^(z[p, j] − M[p]) with
  z and M the block row's logits and their maximum; a block's entry (p, j) at point t is the array's entry
  (10000·t + p, j) and the bias block is the whole bias row, so z, M and the sum are the array row's; hence what point t
  writes back is block t of the row softmax; the ten blocks cover the array.
-/
import proofs.«420683_j33337536151790_2_alg».proof.Proof.Gen.KernelIdeal.Frame
import proofs.«420683_j33337536151790_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Idealize.ShloMosaic Idealize.ShloMosaic.TcCoe Idealize.SL.Sem Idealize.ShloMosaic.ValueIdx

/-! ## The keepdims column forms of a reduction's result, read at an index -/

section Keepdims
variable {α : Type}

/-- An `[a]` array cast to the column `[a, 1]` reads, at `(i, u)`, the operand at `i`, whatever the unit coordinate. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
private theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Keepdims

section
open Cert.KernelIdeal Cert.KernelIdeal.Gen

/-! ## The body's arithmetic, read at an index of the block -/

/-- The logits of row `p` of a block: the block's entry plus the bias row's. -/
private def blkZ (x0 : Vec Ideal S10000x40 .f32) (x1 : Vec Ideal S1x40 .f32) (p : Fin 10000) (j : Fin 40) : EReal :=
  x0 (ix2 p j) + x1 (ix2 (0 : Fin 1) j)

/-- The largest logit of row `p` of a block, folded from −∞ over the 40 classes. -/
private def blkMax (x0 : Vec Ideal S10000x40 .f32) (x1 : Vec Ideal S1x40 .f32) (p : Fin 10000) : EReal :=
  (Finset.univ : Finset (Fin 40)).fold max (Ideal.ofBits .f32 0xFF800000#32) (blkZ x0 x1 p)

/-- The block with the bias row added to every row. -/
private def blkV5 (x0 : Vec Ideal S10000x40 .f32) (x1 : Vec Ideal S1x40 .f32) : FVec Ideal S10000x40 .f32 :=
  addf (shapeCast S10000x40 x0 shapeCasts_S10000x40_S10000x40)
    (broadcastTo S10000x40 (shapeCast S1x40 x1 shapeCasts_S1x40_S1x40) broadcasts_S1x40_S10000x40)

private theorem blkV5_apply (x0 : Vec Ideal S10000x40 .f32) (x1 : Vec Ideal S1x40 .f32) (p : Fin 10000) (j : Fin 40) :
    blkV5 x0 x1 (ix2 p j) = blkZ x0 x1 p j := by
  unfold blkV5 blkZ
  rw [addf_apply, shapeCast_self, shapeCast_self, broadcastTo_1b_ab_apply]

/-- Over row `p` of the block, the index with class `k` inserted on the reduced axis is `(p, k)`. -/
private theorem lift_row (p : Fin 10000) (k : Fin 40) : reduces_S10000x40_S10000.lift (ix1 p) k = ix2 p k := by
  funext a; apply Fin.ext
  match a with
  | ⟨0, _⟩ => rfl
  | ⟨1, _⟩ => rfl

/-- The row maximum the body takes, at row `p`: the fold of `max` from −∞ over the row's 40 logits. -/
private theorem blkRowMax_apply (x0 : Vec Ideal S10000x40 .f32) (x1 : Vec Ideal S1x40 .f32) (p : Fin 10000) :
    multiReduction (F := Ideal) .maximumf [1] S10000 (blkV5 x0 x1) 0xFF800000#32 reduces_S10000x40_S10000 (.inl rfl) rfl (ix1 p)
      = blkMax x0 x1 p := by
  refine (Ideal.multiReduction_maximumf_single (blkV5 x0 x1) 0xFF800000#32 reduces_S10000x40_S10000 (.inl rfl) rfl (ix1 p)).trans ?_
  show (Finset.univ : Finset (Fin 40)).fold max (Ideal.ofBits .f32 0xFF800000#32)
      (fun k : Fin 40 => blkV5 x0 x1 (reduces_S10000x40_S10000.lift (ix1 p) k)) = blkMax x0 x1 p
  have hl : (fun k : Fin 40 => blkV5 x0 x1 (reduces_S10000x40_S10000.lift (ix1 p) k)) = blkZ x0 x1 p :=
    funext fun k => by rw [lift_row, blkV5_apply]
  rw [hl]
  rfl

/-- The block's exponentials: e^(logit − the row's maximum), the maximum taken as the body takes it (reduced over the
    classes, kept as a column, broadcast back over the row). -/
private def blkV10 (x0 : Vec Ideal S10000x40 .f32) (x1 : Vec Ideal S1x40 .f32) : FVec Ideal S10000x40 .f32 :=
  exp (subf (blkV5 x0 x1)
    (broadcastTo S10000x40
      (shapeCast S10000x1
        (multiReduction (F := Ideal) .maximumf [1] S10000 (blkV5 x0 x1) 0xFF800000#32 reduces_S10000x40_S10000 (.inl rfl) rfl)
        shapeCasts_S10000_S10000x1)
      broadcasts_S10000x1_S10000x40))

private theorem blkV10_apply (x0 : Vec Ideal S10000x40 .f32) (x1 : Vec Ideal S1x40 .f32) (p : Fin 10000) (j : Fin 40) :
    blkV10 x0 x1 (ix2 p j) = Ideal.exp (blkZ x0 x1 p j - blkMax x0 x1 p) := by
  unfold blkV10
  show Ideal.exp (blkV5 x0 x1 (ix2 p j) - broadcastTo S10000x40 _ broadcasts_S10000x1_S10000x40 (ix2 p j)) = _
  rw [broadcastTo_a1_ab_apply, shapeCast_a_a1_apply, blkRowMax_apply, blkV5_apply]

/-- The body's result is the exponentials over their row sums (reduced over the classes, kept as a column, broadcast
    back over the row). -/
private theorem pay_eq (x0 : Vec Ideal S10000x40 .f32) (x1 : Vec Ideal S1x40 .f32) :
    k3_pay1 (F := Ideal) x0 x1
      = divf (blkV10 x0 x1)
          (broadcastTo S10000x40
            (shapeCast S10000x1
              (multiReduction (F := Ideal) .add [1] S10000 (blkV10 x0 x1) 0x00000000#32 reduces_S10000x40_S10000 (.inl rfl) rfl)
              shapeCasts_S10000_S10000x1)
            broadcasts_S10000x1_S10000x40) := rfl

/-- THE BODY'S RESULT AT `(p, q)`: the softmax of row `p`'s logits at class `q`. -/
private theorem pay_apply (x0 : Vec Ideal S10000x40 .f32) (x1 : Vec Ideal S1x40 .f32) (p : Fin 10000) (q : Fin 40) :
    k3_pay1 (F := Ideal) x0 x1 (ix2 p q)
      = Ideal.div (Ideal.exp (blkZ x0 x1 p q - blkMax x0 x1 p)) (∑ j : Fin 40, Ideal.exp (blkZ x0 x1 p j - blkMax x0 x1 p)) := by
  rw [pay_eq, divf_apply, broadcastTo_a1_ab_apply, shapeCast_a_a1_apply, blkV10_apply]
  refine congrArg _ ?_
  refine (Ideal.multiReduction_add_single (blkV10 x0 x1) 0x00000000#32 reduces_S10000x40_S10000 (.inl rfl) rfl (ix1 p)).trans ?_
  show ∑ k : Fin 40, blkV10 x0 x1 (reduces_S10000x40_S10000.lift (ix1 p) k) = _
  exact Finset.sum_congr rfl fun k _ => by rw [lift_row, blkV10_apply]

/-- Where a block is a stretch of rows of an array and the bias row is the array's bias row, the body's result at a
    block index is the whole-array row softmax at the array index over it: the maximum and the normaliser range over
    the 40 classes of the SAME row, so they are the array row's. Here `n` is the block's number, `x0` the block of
    `a` at rows `[10000·n, 10000·n + 10000)`, and `x1` the bias row `b`. -/
private theorem block_softmax (a : FVec Ideal ShN40 .f32) (b : FVec Ideal Sh1x40 .f32)
    (x0 : Vec Ideal S10000x40 .f32) (x1 : Vec Ideal S1x40 .f32) (n : Nat)
    (h0 : ∀ (p : Fin 10000) (j : Fin 40) (r : Fin 100000), r.val = n * 10000 + p.val → x0 (ix2 p j) = a (ix2 r j))
    (h1 : ∀ j : Fin 40, x1 (ix2 (0 : Fin 1) j) = b (ix2 (0 : Fin 1) j))
    (p : Fin 10000) (q : Fin 40) (r : Fin 100000) (hr : r.val = n * 10000 + p.val) :
    k3_pay1 (F := Ideal) x0 x1 (ix2 p q) = softmaxRows a b (ix2 r q) := by
  have hz : blkZ x0 x1 p = smZ a b r := funext fun j => by
    unfold blkZ smZ
    rw [h0 p j r hr, h1 j]
  have hM : blkMax x0 x1 p = smMax a b r := by
    unfold blkMax smMax
    rw [hz]
  rw [pay_apply, hz, hM]
  rfl

/-! ## From the blocks to the array -/

private theorem hz3 : (![0, 0] : Fin 2 → Nat) = fun _ => 0 :=
  funext fun a => match a with | ⟨0, _⟩ => rfl | ⟨1, _⟩ => rfl

/-- The printed index maps, decided over the grid: at point `t` the aggregated array's block and the output's block
    are block `t` along the rows, and the bias row's block is the whole row. -/
private theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- WHAT POINT `t` WRITES BACK is block `t` of the row softmax of the two arrays as the region finds them. -/
private theorem flushed3_eq (V : (c : Dev nD) → (b : Ref sig .tc) → Buf (Elt Ideal) ((c : Thread nD τ).loc b)) (c : Dev nD)
    (t : Fin cfg3.N) :
    (dat3 (F := Ideal) V c).flushed 2 t
      = ((cfg3.win 2).blk t).view.read (Elt Ideal) (softmaxRows (V c main_v47) (V c main_v48)) := by
  show (cfg3.win 2).cut (grid3.coords t) ((dat3 V c).after 2 t) = _
  rw [after3_2]
  unfold out3_2
  rw [View.canon_unit_zero hz3]
  simp only [View.ld_unit_zero (S := S10000x40) hz3, View.ld_unit_zero (S := S1x40) hz3]
  obtain ⟨e0, e1, e2, e3, e4, e5⟩ := idx_facts3 t
  have ht : t.val < grid3.N := t.isLt
  rw [N_3] at ht
  have h0 : ∀ (p : Fin 10000) (j : Fin 40) (r : Fin 100000), r.val = t.val * 10000 + p.val →
      (iblk3 V c 0 t : Vec Ideal S10000x40 .f32) (ix2 p j) = (V c main_v47 : FVec Ideal ShN40 .f32) (ix2 r j) := by
    intro p j r hr
    show V c main_v47 (((cfg3.win 0).blk t).view.emb (ix2 p j)) = V c main_v47 (ix2 r j)
    refine congrArg _ (funext fun a => Fin.ext ?_)
    match a with
    | ⟨0, _⟩ => show win3_0.index t (0 : Fin 2) * 10000 + 1 * p.val = r.val; omega
    | ⟨1, _⟩ => show win3_0.index t (1 : Fin 2) * 40 + 1 * j.val = j.val; omega
  have h1 : ∀ j : Fin 40, (iblk3 V c 1 t : Vec Ideal S1x40 .f32) (ix2 (0 : Fin 1) j)
      = (V c main_v48 : FVec Ideal Sh1x40 .f32) (ix2 (0 : Fin 1) j) := by
    intro j
    show V c main_v48 (((cfg3.win 1).blk t).view.emb (ix2 (0 : Fin 1) j)) = V c main_v48 (ix2 (0 : Fin 1) j)
    refine congrArg _ (funext fun a => Fin.ext ?_)
    match a with
    | ⟨0, _⟩ => show win3_1.index t (0 : Fin 2) * 1 + 1 * 0 = 0; omega
    | ⟨1, _⟩ => show win3_1.index t (1 : Fin 2) * 40 + 1 * j.val = j.val; omega
  funext y
  show k3_pay1 (F := Ideal) (iblk3 V c 0 t) (iblk3 V c 1 t) y
    = softmaxRows (V c main_v47) (V c main_v48) (((cfg3.win 2).blk t).view.emb y)
  have hp : (y 0).val < 10000 := (y 0).isLt
  have hemb : ((cfg3.win 2).blk t).view.emb y
      = ix2 (⟨t.val * 10000 + (y 0).val, by omega⟩ : Fin 100000) (y 1) := by
    funext a; apply Fin.ext
    match a with
    | ⟨0, _⟩ => show win3_2.index t (0 : Fin 2) * 10000 + 1 * (y 0).val = t.val * 10000 + (y 0).val; omega
    | ⟨1, _⟩ => show win3_2.index t (1 : Fin 2) * 40 + 1 * (y 1).val = (y 1).val; omega
  refine Eq.trans ?_ (congrArg (softmaxRows (V c main_v47) (V c main_v48)) hemb).symm
  refine (congrArg (k3_pay1 (F := Ideal) (iblk3 V c 0 t) (iblk3 V c 1 t)) (eq_ix2 (n0 := 10000) (n1 := 40) y)).trans ?_
  exact block_softmax (V c main_v47) (V c main_v48) (iblk3 V c 0 t) (iblk3 V c 1 t) t.val h0 h1 (y 0) (y 1) _ rfl

/-- An index of the array is in point `t`'s block iff each coordinate is in the block's range on its axis. -/
private theorem mem_blk3 (t : Fin cfg3.N) (i : S100000x40.Idx) :
    i ∈ ((cfg3.win 2).blk t).view.set ↔ ∀ a : Fin 2, win3_2.index t a * S10000x40.size a ≤ (i a).val
      ∧ (i a).val < win3_2.index t a * S10000x40.size a + S10000x40.size a := by
  show i ∈ ((View.whole main_v49).slice (win3_2.rect t)).set ↔ _
  rw [View.set_slice_whole, Rect.mem_set_unit]
  exact Iff.rfl

/-- The blocks tile the array: row `r` lies in block `r / 10000`, which is written back. -/
private theorem cover3 (i : S100000x40.Idx) :
    ∃ t : Fin cfg3.N, (cfg3.win 2).flush t = true ∧ i ∈ ((cfg3.win 2).blk t).view.set := by
  have hi0 : (i 0).val < 100000 := (i 0).isLt
  have hi1 : (i 1).val < 40 := (i 1).isLt
  have hN : grid3.N = 10 := N_3
  let t : Fin cfg3.N := ⟨(i 0).val / 10000, by show (i 0).val / 10000 < grid3.N; omega⟩
  obtain ⟨-, -, -, -, e4, e5⟩ := idx_facts3 t
  have e4' : win3_2.index t (0 : Fin 2) = (i 0).val / 10000 := e4
  refine ⟨t, flush3_2 t, ?_⟩
  rw [mem_blk3]
  intro a
  match a with
  | ⟨0, _⟩ =>
    show win3_2.index t (0 : Fin 2) * 10000 ≤ (i 0).val ∧ (i 0).val < win3_2.index t (0 : Fin 2) * 10000 + 10000
    omega
  | ⟨1, _⟩ =>
    show win3_2.index t (1 : Fin 2) * 40 ≤ (i 1).val ∧ (i 1).val < win3_2.index t (1 : Fin 2) * 40 + 40
    omega

/-- Region 3 (10 blocks of 10000 rows): the output array after the region is the bias-and-row-softmax of the aggregated
    array and the bias row as the region finds them. -/
theorem region3_value (V : (c : Dev nD) → (b : Ref sig .tc) → Buf (Elt Ideal) ((c : Thread nD τ).loc b)) (c : Dev nD) :
    (dat3 (F := Ideal) V c).arrAt 2 cfg3.N = softmaxRows (V c main_v47) (V c main_v48) := by
  exact (dat3 (F := Ideal) V c).arrAt_eq_of_cover 2 (softmaxRows (V c main_v47) (V c main_v48))
    (fun t _ => flushed3_eq V c t) cover3
end

end Cert.Bridge

end
-- ==== Proof.RefSide.lean ====
/-
  The reference's dense and softmax stages as the whole-array functions of the specification. Its two dot_general
  operations contract one axis, so an element of the result is the sum over that axis of products; its softmax is the
  chain add-bias, row maximum (a max-reduction from −∞, then a maximum with −∞ that changes nothing), subtract,
  exponential, row sum (an add-reduction from zero), divide. Read element by element these are the projections and the
  row softmax of the specification.
-/
import proofs.«420683_j33337536151790_2_alg».proof.Proof.RefRead
import proofs.«420683_j33337536151790_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Idealize.ShloMosaic Idealize.ShloMosaic.TcCoe Idealize.SL.Sem Idealize.ShloMosaic.ValueIdx

section
open Cert.ReferenceIdeal Cert.ReferenceIdeal.ReadP

/-- The reference's first dot_general is the first projection. -/
theorem ref_proj1 (x0 : FVec Ideal S100000x512 .f32) (x2 : FVec Ideal S512x64 .f32) :
    val_main_v30 (F := Ideal) x0 x2 = proj1 x0 x2 := by
  funext i
  have el : ∀ k : Fin 512, lidx_main_v30 i k = ix2 (i 0) k := fun k =>
    funext fun a => Fin.ext (by match a with | ⟨0, _⟩ => rfl | ⟨1, _⟩ => rfl)
  have er : ∀ k : Fin 512, ridx_main_v30 i k = ix2 k (i 1) := fun k =>
    funext fun a => Fin.ext (by match a with | ⟨0, _⟩ => rfl | ⟨1, _⟩ => rfl)
  rw [val_main_v30_apply]
  simp only [el, er]
  rfl

/-- The reference's second dot_general is the second projection of its rectified first layer. -/
theorem ref_proj2 (x0 : FVec Ideal S100000x512 .f32) (x1 : IVec S2x3200000 32) (x2 : FVec Ideal S512x64 .f32) (x3 : FVec Ideal S64 .f32) (x4 : FVec Ideal S64x40 .f32) :
    val_main_v48 (F := Ideal) x0 x1 x2 x3 x4 = proj2 (val_main_v47 (F := Ideal) x0 x1 x2 x3) x4 := by
  funext i
  have el : ∀ k : Fin 64, lidx_main_v48 i k = ix2 (i 0) k := fun k =>
    funext fun a => Fin.ext (by match a with | ⟨0, _⟩ => rfl | ⟨1, _⟩ => rfl)
  have er : ∀ k : Fin 64, ridx_main_v48 i k = ix2 k (i 1) := fun k =>
    funext fun a => Fin.ext (by match a with | ⟨0, _⟩ => rfl | ⟨1, _⟩ => rfl)
  rw [val_main_v48_apply]
  simp only [el, er]
  rfl

section Softmax

variable (x0 : FVec Ideal S100000x512 .f32) (x1 : IVec S2x3200000 32) (x2 : FVec Ideal S512x64 .f32)
  (x3 : FVec Ideal S64 .f32) (x4 : FVec Ideal S64x40 .f32) (x5 : FVec Ideal S40 .f32)

/-- The logits: the aggregated array plus the bias row repeated down the node axis, z[r, j] = a[r, j] + b[0, j]. -/
private theorem ref_logits (i : S100000x40.Idx) :
    val_main_v64 (F := Ideal) x0 x1 x2 x3 x4 x5 i = smZ (val_main_v61 (F := Ideal) x0 x1 x2 x3 x4) (val_main_v62 (F := Ideal) x5) (i 0) (i 1) := by
  have e63 : idx_main_v63 i = (ix2 (0 : Fin 1) (i 1) : S1x40.Idx) :=
    funext fun a => Fin.ext (by match a with | ⟨0, _⟩ => rfl | ⟨1, _⟩ => rfl)
  rw [val_main_v64_apply, val_main_v63_apply]
  exact congrArg₂ (fun (u : S100000x40.Idx) (v : S1x40.Idx) =>
    val_main_v61 (F := Ideal) x0 x1 x2 x3 x4 u + val_main_v62 (F := Ideal) x5 v) (eq_ix2 i) e63

/-- The max-reduction over the class axis from −∞ is the fold of max over the row's 40 logits: the source index over
    row r with class k inserted is (r, k). -/
private theorem ref_rowmax (j : S100000.Idx) :
    val_main_v65 (F := Ideal) x0 x1 x2 x3 x4 x5 j = smMax (val_main_v61 (F := Ideal) x0 x1 x2 x3 x4) (val_main_v62 (F := Ideal) x5) (j 0) := by
  have h : S100000x40.Reduces [1] S100000 := by decide
  have hf : (val_main_v64 (F := Ideal) x0 x1 x2 x3 x4 x5 ∘ h.lift j) = smZ (val_main_v61 (F := Ideal) x0 x1 x2 x3 x4) (val_main_v62 (F := Ideal) x5) (j 0) := by
    funext k
    rw [Function.comp_apply, ref_logits]
    exact congrArg₂ (smZ (val_main_v61 (F := Ideal) x0 x1 x2 x3 x4) (val_main_v62 (F := Ideal) x5)) (Fin.ext rfl) (Fin.ext rfl)
  unfold val_main_v65 smMax
  rw [Host.reduce_eq_fold_single _ _ _ _ h, hf, val_main_cst_12_apply, Ideal.ofBits_def]
  rfl

/-- A maximum with −∞ changes nothing: the fold already starts from −∞, so −∞ is below it. -/
private theorem ref_rowmax_clamped (j : S100000.Idx) :
    val_main_v67 (F := Ideal) x0 x1 x2 x3 x4 x5 j = smMax (val_main_v61 (F := Ideal) x0 x1 x2 x3 x4) (val_main_v62 (F := Ideal) x5) (j 0) := by
  rw [val_main_v67_apply, val_main_v66_apply, val_main_cst_13_apply, ref_rowmax, Ideal.maximumf_def, Ideal.ofBits_def]
  unfold smMax
  exact max_eq_right ((Finset.le_fold_max _).mpr (Or.inl le_rfl))

/-- The row maximum repeated along the class axis. -/
private theorem ref_rowmax_bcast (i : S100000x40.Idx) :
    val_main_v69 (F := Ideal) x0 x1 x2 x3 x4 x5 i = smMax (val_main_v61 (F := Ideal) x0 x1 x2 x3 x4) (val_main_v62 (F := Ideal) x5) (i 0) := by
  rw [val_main_v69_apply, val_main_v68_apply, ref_rowmax_clamped]
  exact congrArg (smMax (val_main_v61 (F := Ideal) x0 x1 x2 x3 x4) (val_main_v62 (F := Ideal) x5)) (Fin.ext rfl)

/-- e^(z[r, j] − M[r]). -/
private theorem ref_exp (i : S100000x40.Idx) :
    val_main_v71 (F := Ideal) x0 x1 x2 x3 x4 x5 i = smE (val_main_v61 (F := Ideal) x0 x1 x2 x3 x4) (val_main_v62 (F := Ideal) x5) (i 0) (i 1) := by
  unfold smE
  rw [val_main_v71_apply, val_main_v70_apply, ref_logits, ref_rowmax_bcast, Ideal.hostUnary_exp_def, Ideal.subf_def]

/-- The add-reduction over the class axis from zero is the row's normaliser Σ_j e^(z[r, j] − M[r]). -/
private theorem ref_rowsum (j : S100000.Idx) :
    val_main_v72 (F := Ideal) x0 x1 x2 x3 x4 x5 j = smSum (val_main_v61 (F := Ideal) x0 x1 x2 x3 x4) (val_main_v62 (F := Ideal) x5) (j 0) := by
  rw [val_main_v72_apply, val_main_cst_14_apply, Ideal.ofBits_def, Ideal.ofBits_zero_f32, zero_add]
  unfold smSum
  refine Finset.sum_congr rfl fun k _ => ?_
  rw [ref_exp]
  exact congrArg₂ (smE (val_main_v61 (F := Ideal) x0 x1 x2 x3 x4) (val_main_v62 (F := Ideal) x5)) (Fin.ext rfl) (Fin.ext rfl)

/-- The normaliser repeated along the class axis. -/
private theorem ref_rowsum_bcast (i : S100000x40.Idx) :
    val_main_v74 (F := Ideal) x0 x1 x2 x3 x4 x5 i = smSum (val_main_v61 (F := Ideal) x0 x1 x2 x3 x4) (val_main_v62 (F := Ideal) x5) (i 0) := by
  rw [val_main_v74_apply, val_main_v73_apply, ref_rowsum]
  exact congrArg (smSum (val_main_v61 (F := Ideal) x0 x1 x2 x3 x4) (val_main_v62 (F := Ideal) x5)) (Fin.ext rfl)

end Softmax

/-- The reference's result is the bias-and-row-softmax of its second aggregated array and its second bias row. -/
theorem ref_softmax (x0 : FVec Ideal S100000x512 .f32) (x1 : IVec S2x3200000 32) (x2 : FVec Ideal S512x64 .f32) (x3 : FVec Ideal S64 .f32) (x4 : FVec Ideal S64x40 .f32) (x5 : FVec Ideal S40 .f32) :
    val_main_v75 (F := Ideal) x0 x1 x2 x3 x4 x5 = softmaxRows (val_main_v61 (F := Ideal) x0 x1 x2 x3 x4) (val_main_v62 (F := Ideal) x5) := by
  funext i
  unfold softmaxRows
  rw [val_main_v75_apply, ref_exp, ref_rowsum_bcast, Ideal.hostDivf_def]
end

end Cert.Bridge

end
-- ==== Proof.Take.lean ====
/-
  The kernel program's row lookup. It takes row s[e] of a 100000-row table for each of the 3300000 edge slots e: a
  negative index is first wrapped by adding 100000; then a mask is computed, slot by slot, that the wrapped index lies
  in [0, 99999]; the table is gathered at the wrapped index (the gather clamps its start into the table); and where
  the mask is clear the gathered row is replaced by a fill value. When every source index is a node number, 0 ≤ s[e] <
  100000, nothing is wrapped, every mask bit is set, and the lookup is the plain gather at the wrapped index: the fill
  value is never selected.

  The proof, slot by slot. A word v with value below 100000 is below 2^31, so it compares signed as it compares
  unsigned: v < 0 is false, the wrapped index is v itself, and 0 ≤ v and v ≤ 99999 both hold; their "and" is 1. The mask
  at slot e is the "and", from 1, over the unit axis of that bit, a fold over bits that are all 1: it is 1. A select
  whose mask is 1 everywhere is its first branch, here the gather. Between the operations the program moves each value
  to its buffer's type and back; the two transports cancel, and a transport along an equation between a type and itself
  is the identity.
-/
import proofs.«420683_j33337536151790_2_alg».proof.Proof.Gen.KernelIdeal.Frame
import Idealize.ShloMosaic.Lib.StableHlo.Run
import Idealize.ShloMosaic.Lib.StableHlo.Predicate
import Idealize.ShloMosaic.Lib.ReduceAll
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Idealize.ShloMosaic Idealize.ShloMosaic.TcCoe Idealize.SL.Sem Idealize.ShloMosaic.ValueIdx

section
open Cert.KernelIdeal Cert.KernelIdeal.Gen

/-- Transport along an equation of types and back is the identity. -/
private theorem cast_cast_self {α β : Type} (h : β = α) (h' : α = β) (v : α) : cast h (cast h' v) = v := by
  subst h'; rfl

/-- A fold of the one-bit "and" from 1 over words that are all 1 is 1. -/
private theorem fold_andi_one {ι : Type} [DecidableEq ι] (S : Finset ι) (x : ι → BitVec 1) (hx : ∀ i ∈ S, x i = 1#1) :
    S.fold IntOp.andi 1#1 x = 1#1 := by
  induction S using Finset.induction_on with
  | empty => rfl
  | insert a S ha ih =>
    rw [Finset.fold_insert ha, hx a (Finset.mem_insert_self _ _), ih (fun i hi => hx i (Finset.mem_insert_of_mem hi))]
    rfl

/-- A node number v < 100000, as a 32-bit word, is not negative (so it is not wrapped), and lies in [0, 99999]. -/
private theorem node_word (v : BitVec 32) (hv : v.toNat < 100000) :
    IntOp.andi (IntOp.cmpi .sge (Scalar.select (IntOp.cmpi .slt v 0#32) (IntOp.addi v 100000#32) v) 0#32)
               (IntOp.cmpi .sle (Scalar.select (IntOp.cmpi .slt v 0#32) (IntOp.addi v 100000#32) v) 99999#32) = 1#1 := by
  have h0 : (0#32 : BitVec 32).toNat < 2 ^ 31 := by decide
  have h9 : (99999#32 : BitVec 32).toNat < 2 ^ 31 := by decide
  have hv' : v.toNat < 2 ^ 31 := by omega
  have hslt : IntOp.cmpi .slt v 0#32 ≠ 1#1 := fun h =>
    Nat.not_lt_zero _ ((StableHlo.Predicate.slt_iff_toNat hv' h0).1 h)
  have hsel : Scalar.select (IntOp.cmpi .slt v 0#32) (IntOp.addi v 100000#32) v = v := if_neg hslt
  rw [hsel, (StableHlo.Predicate.sge_iff_toNat hv' h0).2 (Nat.zero_le _),
    (StableHlo.Predicate.sle_iff_toNat hv' h9).2 (Nat.le_of_lt_succ hv)]
  rfl

/-- A select whose mask is 1 everywhere is its first branch. -/
private theorem select_all_one {s : Shape} {α : Type} (c : IVec s 1) (a b : s.Idx → α) (hc : ∀ i, c i = 1#1) :
    select c a b = a := by
  funext i
  unfold select Scalar.select
  rw [hc i]
  exact if_pos rfl

/-- The lookup's mask: with every source index a node number, the "and" over the unit axis of
    (0 ≤ idx[e, 0]) ∧ (idx[e, 0] ≤ 99999), idx the wrapped index as a column, is 1 at every slot e. -/
private theorem take_mask (hb0 : S_.BroadcastsInDim S3300000 ![]) (hb1 : S3300000.BroadcastsInDim S3300000x1 ![0])
    (hb2 : S_.BroadcastsInDim S3300000x1 ![]) (hb3 : S1.BroadcastsInDim S1x1 ![1])
    (hb4 : S1x1.BroadcastsInDim S3300000x1 ![0, 1]) (hr : S3300000x1.ReducesTo [1] S3300000) (hu : 0 < S_.numel)
    (s : IVec S3300000 32) (hs : ∀ e, (s e).toNat < 100000) (j : S3300000.Idx) :
    Host.reduce IntOp.andi
      (andi
        (cmpi .sge
          (broadcastInDim S3300000x1 ![0] hb1
            (select (cmpi .slt s (broadcastInDim S3300000 ![] hb0 (constantI S_ 32 0#32)))
              (addi s (broadcastInDim S3300000 ![] hb0 (constantI S_ 32 100000#32))) s))
          (broadcastInDim S3300000x1 ![] hb2 (constantI S_ 32 0#32)))
        (cmpi .sle
          (broadcastInDim S3300000x1 ![0] hb1
            (select (cmpi .slt s (broadcastInDim S3300000 ![] hb0 (constantI S_ 32 0#32)))
              (addi s (broadcastInDim S3300000 ![] hb0 (constantI S_ 32 100000#32))) s))
          (broadcastInDim S3300000x1 ![0, 1] hb4 (broadcastInDim S1x1 ![1] hb3 (constantI S1 32 99999#32)))))
      (constantI S_ 1 1#1) hr hu j = 1#1 := by
  rw [Host.reduce_eq_fold]
  exact fold_andi_one _ _ (fun i _ => node_word _ (hs _))

/-- With every source index a node number the lookup's select keeps its first branch: the mask, laid along any result
    shape, is 1 everywhere, so the fill value is never selected. -/
private theorem take_select {sO : Shape} {α : Type} (dims : Fin S3300000.rank → Fin sO.rank)
    (hb5 : S3300000.BroadcastsInDim sO dims) (a b : sO.Idx → α)
    (hb0 : S_.BroadcastsInDim S3300000 ![]) (hb1 : S3300000.BroadcastsInDim S3300000x1 ![0])
    (hb2 : S_.BroadcastsInDim S3300000x1 ![]) (hb3 : S1.BroadcastsInDim S1x1 ![1])
    (hb4 : S1x1.BroadcastsInDim S3300000x1 ![0, 1]) (hr : S3300000x1.ReducesTo [1] S3300000) (hu : 0 < S_.numel)
    (s : IVec S3300000 32) (hs : ∀ e, (s e).toNat < 100000) :
    select
      (broadcastInDim sO dims hb5
        (Host.reduce IntOp.andi
          (andi
            (cmpi .sge
              (broadcastInDim S3300000x1 ![0] hb1
                (select (cmpi .slt s (broadcastInDim S3300000 ![] hb0 (constantI S_ 32 0#32)))
                  (addi s (broadcastInDim S3300000 ![] hb0 (constantI S_ 32 100000#32))) s))
              (broadcastInDim S3300000x1 ![] hb2 (constantI S_ 32 0#32)))
            (cmpi .sle
              (broadcastInDim S3300000x1 ![0] hb1
                (select (cmpi .slt s (broadcastInDim S3300000 ![] hb0 (constantI S_ 32 0#32)))
                  (addi s (broadcastInDim S3300000 ![] hb0 (constantI S_ 32 100000#32))) s))
              (broadcastInDim S3300000x1 ![0, 1] hb4 (broadcastInDim S1x1 ![1] hb3 (constantI S1 32 99999#32)))))
          (constantI S_ 1 1#1) hr hu))
      a b = a :=
  select_all_one _ _ _ (fun i => take_mask hb0 hb1 hb2 hb3 hb4 hr hu s hs _)

/-- The 64-column lookup (the host stretch between regions 0 and 1), from any buffer contents `W` whose source
    indices are node numbers: its result is the gather of the projected table at the wrapped indices. -/
theorem take64 (W : Valuation τ sig (Elt Ideal))
    (hs : ∀ e : S3300000.Idx, ((W (Proc.devRef .tc main_v3) : IVec S3300000 32) e).toNat < 100000) :
    StableHlo.after (hostOps1 (F := Ideal)) W (Proc.devRef .tc main_v31)
      = Host.gather gather_S100000x64_S3300000x1_S3300000x64_1_0_n_n_0_1_164 (W (Proc.devRef .tc main_v30))
          (broadcastInDim S3300000x1 ![0] bcast_S3300000_S3300000x1_0
            (select (cmpi .slt (W (Proc.devRef .tc main_v3)) (broadcastInDim S3300000 ![] bcast_S_S3300000 (constantI S_ 32 0#32)))
                    (addi (W (Proc.devRef .tc main_v3)) (broadcastInDim S3300000 ![] bcast_S_S3300000 (constantI S_ 32 100000#32)))
                    (W (Proc.devRef .tc main_v3)))) := by
  -- the select with the mask computed from these indices keeps the gather
  have key := take_select (sO := S3300000x64) ![0] bcast_S3300000_S3300000x64_0
    (Host.gather gather_S100000x64_S3300000x1_S3300000x64_1_0_n_n_0_1_164 (W (Proc.devRef .tc main_v30))
      (broadcastInDim S3300000x1 ![0] bcast_S3300000_S3300000x1_0
        (select (cmpi .slt (W (Proc.devRef .tc main_v3)) (broadcastInDim S3300000 ![] bcast_S_S3300000 (constantI S_ 32 0#32)))
                (addi (W (Proc.devRef .tc main_v3)) (broadcastInDim S3300000 ![] bcast_S_S3300000 (constantI S_ 32 100000#32)))
                (W (Proc.devRef .tc main_v3)))))
    (broadcastInDim S3300000x64 ![] bcast_S_S3300000x64 (constant (F := Ideal) S_ .f32 0x7FC00000#32))
    bcast_S_S3300000 bcast_S3300000_S3300000x1_0 bcast_S_S3300000x1 bcast_S1_S1x1_1 bcast_S1x1_S3300000x1_0_1
    reducesTo_S3300000x1_S3300000_d1 h_S_ (W (Proc.devRef .tc main_v3)) hs
  -- the two input arrays, moved to the type their buffers already have, are themselves
  have e3 : ∀ h : main_v3.ty.Contents (Elt Ideal) = (⟨S3300000, .i32⟩ : BufTy).Contents (Elt Ideal),
      cast h (W (Proc.devRef .tc main_v3)) = W (Proc.devRef .tc main_v3) := fun h => rfl
  have e30 : ∀ h : main_v30.ty.Contents (Elt Ideal) = (⟨S100000x64, .f32⟩ : BufTy).Contents (Elt Ideal),
      cast h (W (Proc.devRef .tc main_v30)) = W (Proc.devRef .tc main_v30) := fun h => rfl
  -- the stretch's result as one term over the two input arrays
  after_results_simp
  simp only [StableHlo.TRef.ofBuf, StableHlo.TRef.toBuf, cast_cast_self]
  rw [e3, e30]
  -- the last transport, of the selected array to the result buffer's type
  refine eq_of_heq ((cast_heq _ _).trans (heq_of_eq ?_))
  exact key

/-- The 40-column lookup (the host stretch between regions 2 and 3), likewise. -/
theorem take40 (W : Valuation τ sig (Elt Ideal))
    (hs : ∀ e : S3300000.Idx, ((W (Proc.devRef .tc main_v3) : IVec S3300000 32) e).toNat < 100000) :
    StableHlo.after (hostOps3 (F := Ideal)) W (Proc.devRef .tc main_v41)
      = Host.gather gather_S100000x40_S3300000x1_S3300000x40_1_0_n_n_0_1_140 (W (Proc.devRef .tc main_v40))
          (broadcastInDim S3300000x1 ![0] bcast_S3300000_S3300000x1_0
            (select (cmpi .slt (W (Proc.devRef .tc main_v3)) (broadcastInDim S3300000 ![] bcast_S_S3300000 (constantI S_ 32 0#32)))
                    (addi (W (Proc.devRef .tc main_v3)) (broadcastInDim S3300000 ![] bcast_S_S3300000 (constantI S_ 32 100000#32)))
                    (W (Proc.devRef .tc main_v3)))) := by
  -- the select with the mask computed from these indices keeps the gather
  have key := take_select (sO := S3300000x40) ![0] bcast_S3300000_S3300000x40_0
    (Host.gather gather_S100000x40_S3300000x1_S3300000x40_1_0_n_n_0_1_140 (W (Proc.devRef .tc main_v40))
      (broadcastInDim S3300000x1 ![0] bcast_S3300000_S3300000x1_0
        (select (cmpi .slt (W (Proc.devRef .tc main_v3)) (broadcastInDim S3300000 ![] bcast_S_S3300000 (constantI S_ 32 0#32)))
                (addi (W (Proc.devRef .tc main_v3)) (broadcastInDim S3300000 ![] bcast_S_S3300000 (constantI S_ 32 100000#32)))
                (W (Proc.devRef .tc main_v3)))))
    (broadcastInDim S3300000x40 ![] bcast_S_S3300000x40 (constant (F := Ideal) S_ .f32 0x7FC00000#32))
    bcast_S_S3300000 bcast_S3300000_S3300000x1_0 bcast_S_S3300000x1 bcast_S1_S1x1_1 bcast_S1x1_S3300000x1_0_1
    reducesTo_S3300000x1_S3300000_d1 h_S_ (W (Proc.devRef .tc main_v3)) hs
  -- the two input arrays, moved to the type their buffers already have, are themselves
  have e3 : ∀ h : main_v3.ty.Contents (Elt Ideal) = (⟨S3300000, .i32⟩ : BufTy).Contents (Elt Ideal),
      cast h (W (Proc.devRef .tc main_v3)) = W (Proc.devRef .tc main_v3) := fun h => rfl
  have e30 : ∀ h : main_v40.ty.Contents (Elt Ideal) = (⟨S100000x40, .f32⟩ : BufTy).Contents (Elt Ideal),
      cast h (W (Proc.devRef .tc main_v40)) = W (Proc.devRef .tc main_v40) := fun h => rfl
  -- the stretch's result as one term over the two input arrays
  after_results_simp
  simp only [StableHlo.TRef.ofBuf, StableHlo.TRef.toBuf, cast_cast_self]
  rw [e3, e30]
  -- the last transport, of the selected array to the result buffer's type
  refine eq_of_heq ((cast_heq _ _).trans (heq_of_eq ?_))
  exact key
end

end Cert.Bridge

end
-- ==== Proof.SrcRange.lean ====
/-
  What the precondition says of the source indices. The precondition is the conjunction of five finiteness tests and of
  "every entry of row 0 of edge_index is at least 0 and below 100000", each an all-reduction of a mask. The source
  index vector of the programs is row 0 of edge_index (3200000 entries) followed by the node numbers 0 … 99999 (the
  self-loops). Under the precondition every one of its 3300000 entries is therefore a node number: below 100000 as an
  unsigned word.

  * An all-reduction by "and" that is 1 met a 1 at every index, so at every position i of row 0 both signed comparisons
    hold: 0 ≤ row0[i] and row0[i] < 100000. A 32-bit word that is non-negative as a signed word has its top bit clear,
    so it reads the same signed and unsigned; hence row0[i] < 100000 unsigned.
  * Entry e of the concatenation is row0[e] for e < 3200000, and the word of e − 3200000 for 3200000 ≤ e < 3300000;
    e − 3200000 < 100000 < 2^32, so that word's value is e − 3200000 itself.
-/
import proofs.«420683_j33337536151790_2_alg».proof.Pre_finite_inputs
import proofs.«420683_j33337536151790_2_alg».proof.Proof.Gen.Pre_finite_inputs
import proofs.«420683_j33337536151790_2_alg».proof.Proof.RefRead
import Idealize.ShloMosaic.Lib.StableHlo.Predicate
import Idealize.ShloMosaic.Lib.ReduceAll
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Idealize.ShloMosaic Idealize.ShloMosaic.TcCoe Idealize.SL.Sem Idealize.ShloMosaic.ValueIdx

/-- A word that is at least 0 and below n as a signed word (n below 2^31) is below n as an unsigned word. -/
private theorem toNat_lt_of_signed (w : BitVec 32) (n : Nat) (hn : n < 2 ^ 31)
    (h0 : IntOp.cmpi .sge w (0#32) = 1#1) (h1 : IntOp.cmpi .slt w (BitVec.ofNat 32 n) = 1#1) : w.toNat < n := by
  have hw : w.toNat < 2 ^ 31 := by
    unfold IntOp.cmpi at h0
    rw [StableHlo.Predicate.ofBool_eq_one_iff] at h0
    have hz : (0#32 : BitVec 32).toInt = 0 := by decide
    simp only [BitVec.sle, hz, decide_eq_true_eq] at h0
    have h32 := w.isLt
    rw [BitVec.toInt_eq_toNat_cond] at h0
    split at h0 <;> omega
  have hn' : (BitVec.ofNat 32 n).toNat = n := by
    rw [BitVec.toNat_ofNat]; exact Nat.mod_eq_of_lt (by omega)
  have := (StableHlo.Predicate.slt_iff_toNat (a := w) (b := BitVec.ofNat 32 n) hw (by omega)).1 h1
  omega

section
open Cert.ReferenceIdeal Cert.ReferenceIdeal.ReadP

/-- Under the precondition every entry of row 0 of the edge table, as the reference reads it, is below 100000: the
    last conjunct of the precondition is the all-reduction of the mask "0 ≤ entry < 100000 (signed)" over that row. -/
private theorem row0_in_range (x0 : FVec Ideal S100000x512 .f32) (x1 : IVec S2x3200000 32) (x2 : FVec Ideal S512x64 .f32)
    (x3 : FVec Ideal S64 .f32) (x4 : FVec Ideal S64x40 .f32) (x5 : FVec Ideal S40 .f32)
    (h : Cert.Pre_finite_inputs.fn (F := Ideal) x0 x1 x2 x3 x4 x5 = fun _ => 1#1) :
    ∀ i : S3200000.Idx, (val_main_v2 (F := Ideal) x1 i).toNat < 100000 := by
  intro i
  have h0 := congrFun h ValueIdx.ix0
  dsimp only [Cert.Pre_finite_inputs.fn, Cert.Pre_finite_inputs.fn_part1] at h0
  -- the outer conjunction's last conjunct: the all-reduction of the range mask
  have h33 := (IntOp.andi_eq_one.1 h0).2
  haveI : Subsingleton Cert.Pre_finite_inputs.S_.Idx := ⟨fun a b => funext fun d => d.elim0⟩
  -- so the mask is set at every index; it is the conjunction of the two signed comparisons
  have hm := Host.reduce_andi_all _ _ _ _ _ h33 i
  obtain ⟨hge, hlt⟩ := IntOp.andi_eq_one.1 hm
  exact toNat_lt_of_signed _ 100000 (by decide) hge hlt

/-- Under the precondition every source index (edge sources, then the self-loops' node numbers) is below 100000. -/
theorem src_in_range (x0 : FVec Ideal S100000x512 .f32) (x1 : IVec S2x3200000 32) (x2 : FVec Ideal S512x64 .f32)
    (x3 : FVec Ideal S64 .f32) (x4 : FVec Ideal S64x40 .f32) (x5 : FVec Ideal S40 .f32)
    (h : Cert.Pre_finite_inputs.fn (F := Ideal) x0 x1 x2 x3 x4 x5 = fun _ => 1#1) :
    ∀ e : S3300000.Idx, (val_main_v3 (F := Ideal) x1 e).toNat < 100000 := by
  intro e
  have he : (e 0).val < 3300000 := (e 0).isLt
  unfold val_main_v3
  by_cases hc : (e 0).val < 3200000
  · -- an edge: entry e of row 0
    rw [concatenate_pair_apply_left (t := S3300000) (s₁ := S3200000) (s₂ := S100000) (0 : Fin 1) _ _ _ e rfl
      ((fun a => match a with | ⟨0, _⟩ => ⟨(e 0).val, hc⟩ : S3200000.Idx)) (fun b => by match b with | ⟨0, _⟩ => rfl)]
    exact row0_in_range x0 x1 x2 x3 x4 x5 h _
  · -- a self-loop: node number e − 3200000
    rw [concatenate_pair_apply_right (t := S3300000) (s₁ := S3200000) (s₂ := S100000) (0 : Fin 1) _ _ _ e rfl rfl
      ((fun a => match a with | ⟨0, _⟩ => ⟨(e 0).val - 3200000, by show (e 0).val - 3200000 < 100000; omega⟩ : S100000.Idx))
      (fun b hb => by match b with | ⟨0, _⟩ => exact absurd rfl hb)
      (by show (e 0).val - 3200000 + 3200000 = (e 0).val; omega)]
    rw [val_main_v0_apply]
    show (BitVec.ofNat 32 ((e 0).val - 3200000)).toNat < 100000
    rw [BitVec.toNat_ofNat]
    exact lt_of_le_of_lt (Nat.mod_le _ _) (by omega)
end

end Cert.Bridge

end
-- ==== Proof.Chain.lean ====
/-
  The kernel's program, boundary by boundary, against the reference, at the ideal instance and under the precondition.
  Walking the program from the launch: the first region's output is the reference's first projection; the row lookup,
  scaling and scatter-add after it give the reference's first aggregated array (the lookup is a plain gather because
  every source index is a node number); the second region's output is the reference's rectified first layer; the
  third region's its second projection; the second lookup and aggregation give its second aggregated array; and the
  last region's output is the reference's result, the row softmax. So the result buffer of the kernel's program ends
  holding the reference's result, as a function of the six argument arrays.
-/
import proofs.«420683_j33337536151790_2_alg».proof.Proof.HostChain
import proofs.«420683_j33337536151790_2_alg».proof.Proof.ProjK
import proofs.«420683_j33337536151790_2_alg».proof.Proof.Relu
import proofs.«420683_j33337536151790_2_alg».proof.Proof.SoftmaxK
import proofs.«420683_j33337536151790_2_alg».proof.Proof.RefSide
import proofs.«420683_j33337536151790_2_alg».proof.Proof.Take
import proofs.«420683_j33337536151790_2_alg».proof.Proof.SrcRange

set_option maxRecDepth 16384

noncomputable section

namespace Cert.Bridge

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## Region 0: the first projection -/

theorem W4_proj : W4 m ρ c (Proc.devRef .tc main_v30) = Cert.ReferenceIdeal.ReadP.val_main_v30 (F := Ideal) (m ((c.tc : Thread nD τ).loc main_arg0)) (m ((c.tc : Thread nD τ).loc main_arg2)) := by
  refine (W4_arr m ρ c 2).trans ((region0_value (V3 m ρ) c).trans ?_)
  rw [ref_proj1]
  exact congrArg₂ proj1 (W3_arg0 m ρ c) (W3_arg2 m ρ c)

theorem W4_src : W4 m ρ c (Proc.devRef .tc main_v3) = Cert.ReferenceIdeal.ReadP.val_main_v3 (F := Ideal) (m ((c.tc : Thread nD τ).loc main_arg1)) :=
  (W4_of_ne m ρ c main_v3 (by decide)).trans (W3_src m ρ c)
theorem W4_dst : W4 m ρ c (Proc.devRef .tc main_v6) = Cert.ReferenceIdeal.ReadP.val_main_v6 (F := Ideal) (m ((c.tc : Thread nD τ).loc main_arg1)) :=
  (W4_of_ne m ρ c main_v6 (by decide)).trans (W3_dst m ρ c)
theorem W4_norm : W4 m ρ c (Proc.devRef .tc main_v29) = Cert.ReferenceIdeal.ReadP.val_main_v29 (F := Ideal) (m ((c.tc : Thread nD τ).loc main_arg1)) :=
  (W4_of_ne m ρ c main_v29 (by decide)).trans (W3_norm m ρ c)
theorem W4_arg3 : W4 m ρ c (Proc.devRef .tc main_arg3) = (m ((c.tc : Thread nD τ).loc main_arg3)) :=
  (W4_of_ne m ρ c main_arg3 (by decide)).trans (W3_arg3 m ρ c)
theorem W4_arg4 : W4 m ρ c (Proc.devRef .tc main_arg4) = (m ((c.tc : Thread nD τ).loc main_arg4)) :=
  (W4_of_ne m ρ c main_arg4 (by decide)).trans (W3_arg4 m ρ c)
theorem W4_arg5 : W4 m ρ c (Proc.devRef .tc main_arg5) = (m ((c.tc : Thread nD τ).loc main_arg5)) :=
  (W4_of_ne m ρ c main_arg5 (by decide)).trans (W3_arg5 m ρ c)

/-! ## The first lookup and aggregation; region 1: bias and rectifier -/

section UnderPre
variable (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = fun _ => 1#1)
include hpre

theorem src4_lt : ∀ e : S3300000.Idx, ((W4 m ρ c (Proc.devRef .tc main_v3) : IVec S3300000 32) e).toNat < 100000 := by
  intro e
  rw [W4_src m ρ c]
  exact src_in_range _ _ _ _ _ _ hpre e

theorem W6_agg : W6 m ρ c (Proc.devRef .tc main_v37) = Cert.ReferenceIdeal.ReadP.val_main_v43 (F := Ideal) (m ((c.tc : Thread nD τ).loc main_arg0)) (m ((c.tc : Thread nD τ).loc main_arg1)) (m ((c.tc : Thread nD τ).loc main_arg2)) := by
  show StableHlo.after hostOps1_1 (StableHlo.after hostOps1 (W4 m ρ c)) (Proc.devRef .tc main_v37) = _
  rw [agg64, take64 (W4 m ρ c) (src4_lt m ρ c hpre), (take64_keeps (W4 m ρ c)).1, (take64_keeps (W4 m ρ c)).2.1,
    W4_proj m ρ c, W4_src m ρ c, W4_dst m ρ c, W4_norm m ρ c]
  exact agg64_ref _ _ _

omit hpre in
theorem W6_row : W6 m ρ c (Proc.devRef .tc main_v38) = Cert.ReferenceIdeal.ReadP.val_main_v44 (F := Ideal) (m ((c.tc : Thread nD τ).loc main_arg3)) := by
  show StableHlo.after hostOps1_1 (StableHlo.after hostOps1 (W4 m ρ c)) (Proc.devRef .tc main_v38) = _
  rw [row64_of, (take64_keeps (W4 m ρ c)).2.2, W4_arg3 m ρ c]
  exact row64 _

theorem W7_relu : W7 m ρ c (Proc.devRef .tc main_v39) = Cert.ReferenceIdeal.ReadP.val_main_v47 (F := Ideal) (m ((c.tc : Thread nD τ).loc main_arg0)) (m ((c.tc : Thread nD τ).loc main_arg1)) (m ((c.tc : Thread nD τ).loc main_arg2)) (m ((c.tc : Thread nD τ).loc main_arg3)) := by
  refine (W7_arr m ρ c 2).trans ((region1_value (V6 m ρ) c).trans ?_)
  rw [ref_biasRelu]
  exact congrArg₂ biasRelu (W6_agg m ρ c hpre) (W6_row m ρ c)

/-! ## Region 2: the second projection -/

omit hpre in
theorem W7_arg4 : W7 m ρ c (Proc.devRef .tc main_arg4) = (m ((c.tc : Thread nD τ).loc main_arg4)) :=
  (W7_of_ne m ρ c main_arg4 (by decide)).trans (((stretch1_keeps (W4 m ρ c)).2.2.2.1).trans (W4_arg4 m ρ c))

theorem W8_proj : W8 m ρ c (Proc.devRef .tc main_v40) = Cert.ReferenceIdeal.ReadP.val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W8_arr m ρ c 2).trans ((region2_value (V7 m ρ) c).trans ?_)
  rw [ref_proj2]
  exact congrArg₂ proj2 (W7_relu m ρ c hpre) (W7_arg4 m ρ c)

omit hpre in
theorem W8_src : W8 m ρ c (Proc.devRef .tc main_v3) = Cert.ReferenceIdeal.ReadP.val_main_v3 (F := Ideal) (m ((c.tc : Thread nD τ).loc main_arg1)) :=
  (W8_of_ne m ρ c main_v3 (by decide)).trans ((W7_of_ne m ρ c main_v3 (by decide)).trans
    (((stretch1_keeps (W4 m ρ c)).1).trans (W4_src m ρ c)))
omit hpre in
theorem W8_dst : W8 m ρ c (Proc.devRef .tc main_v6) = Cert.ReferenceIdeal.ReadP.val_main_v6 (F := Ideal) (m ((c.tc : Thread nD τ).loc main_arg1)) :=
  (W8_of_ne m ρ c main_v6 (by decide)).trans ((W7_of_ne m ρ c main_v6 (by decide)).trans
    (((stretch1_keeps (W4 m ρ c)).2.1).trans (W4_dst m ρ c)))
omit hpre in
theorem W8_norm : W8 m ρ c (Proc.devRef .tc main_v29) = Cert.ReferenceIdeal.ReadP.val_main_v29 (F := Ideal) (m ((c.tc : Thread nD τ).loc main_arg1)) :=
  (W8_of_ne m ρ c main_v29 (by decide)).trans ((W7_of_ne m ρ c main_v29 (by decide)).trans
    (((stretch1_keeps (W4 m ρ c)).2.2.1).trans (W4_norm m ρ c)))
omit hpre in
theorem W8_arg5 : W8 m ρ c (Proc.devRef .tc main_arg5) = (m ((c.tc : Thread nD τ).loc main_arg5)) :=
  (W8_of_ne m ρ c main_arg5 (by decide)).trans ((W7_of_ne m ρ c main_arg5 (by decide)).trans
    (((stretch1_keeps (W4 m ρ c)).2.2.2.2).trans (W4_arg5 m ρ c)))

/-! ## The second lookup and aggregation; region 3: bias and row softmax -/

theorem src8_lt : ∀ e : S3300000.Idx, ((W8 m ρ c (Proc.devRef .tc main_v3) : IVec S3300000 32) e).toNat < 100000 := by
  intro e
  rw [W8_src m ρ c]
  exact src_in_range _ _ _ _ _ _ hpre e

theorem W10_agg : W10 m ρ c (Proc.devRef .tc main_v47) = Cert.ReferenceIdeal.ReadP.val_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps3_1 (StableHlo.after hostOps3 (W8 m ρ c)) (Proc.devRef .tc main_v47) = _
  rw [agg40, take40 (W8 m ρ c) (src8_lt m ρ c hpre), (take40_keeps (W8 m ρ c)).1, (take40_keeps (W8 m ρ c)).2.1,
    W8_proj m ρ c hpre, W8_src m ρ c, W8_dst m ρ c, W8_norm m ρ c]
  exact agg40_ref _ _ _ _ _

omit hpre in
theorem W10_row : W10 m ρ c (Proc.devRef .tc main_v48) = Cert.ReferenceIdeal.ReadP.val_main_v62 (F := Ideal) (m ((c.tc : Thread nD τ).loc main_arg5)) := by
  show StableHlo.after hostOps3_1 (StableHlo.after hostOps3 (W8 m ρ c)) (Proc.devRef .tc main_v48) = _
  rw [row40_of, (take40_keeps (W8 m ρ c)).2.2, W8_arg5 m ρ c]
  exact row40 _

/-- THE KERNEL'S RESULT: after the last region the result buffer holds the reference's result stage of the six
    argument arrays. -/
theorem kernel_result : W11 m ρ c (Proc.devRef .tc main_v49)
    = Cert.ReferenceIdeal.ReadP.val_main_v75 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W11_arr m ρ c 2).trans ((region3_value (V10 m ρ) c).trans ?_)
  rw [ref_softmax]
  exact congrArg₂ softmaxRows (W10_agg m ρ c hpre) (W10_row m ρ c)

end UnderPre

end Cert.Bridge

end
-- ==== Proof.lean ====
/-
  A two-layer graph convolution (dense projection, neighbour aggregation with symmetric normalisation, bias; a rectifier
  after the first layer, a row softmax after the second) over 100000 nodes and 3200000 edges plus self-loops: the
  kernel's program against its reference, over the extended reals.

  The two programs run the same host operations for the edge lists, the normalisation, the row lookups and the
  scatter-adds; they differ in three things. The kernel computes the two projections, the bias-and-rectifier and the
  bias-and-softmax in pipelined regions, block by block over the node axis, where the reference uses one whole-array
  operation each: block by block or whole, every output row depends on its own input row alone (and on the whole
  weight or bias), so the arrays are the same (Proof/ProjK, Proof/Relu, Proof/SoftmaxK against Proof/RefSide; the
  common functions are in Proof/Spec). The kernel narrows the projections' operands to bf16, which is the identity
  at the ideal instance. And the kernel's row lookup replaces rows whose source index is out of range by a fill value,
  where the reference's lookup clamps the index: the two agree exactly when every source index is a node number, which
  the precondition states (0 ≤ edge_index[0] < 100000; the self-loops' indices are node numbers by construction)
  (Proof/SrcRange, Proof/Take). The chain from the launch to the result buffer is Proof/HostChain and Proof/Chain.

  The frames: the kernel's programs terminate without a fault with their arguments unchanged by the generated frame
  certificates; the reference's by its run. The idealization rewrote nothing, so `preserves` is trivial.
-/
import proofs.«420683_j33337536151790_2_alg».proof.Defs
import proofs.«420683_j33337536151790_2_alg».proof.Proof.Gen.Kernel
import proofs.«420683_j33337536151790_2_alg».proof.Proof.Gen.Kernel.Frame
import proofs.«420683_j33337536151790_2_alg».proof.Proof.Gen.KernelIdeal
import proofs.«420683_j33337536151790_2_alg».proof.Proof.Gen.KernelIdeal.Frame
import proofs.«420683_j33337536151790_2_alg».proof.Proof.Gen.ReferenceIdeal
import proofs.«420683_j33337536151790_2_alg».proof.Proof.Gen.Pre_finite_inputs
import proofs.«420683_j33337536151790_2_alg».proof.Proof.KRun
import proofs.«420683_j33337536151790_2_alg».proof.Proof.RefRun
import proofs.«420683_j33337536151790_2_alg».proof.Proof.RefRead
import proofs.«420683_j33337536151790_2_alg».proof.Proof.Chain

set_option maxRecDepth 16384

noncomputable section

namespace Cert.Proof

open Idealize.ShloMosaic Idealize.ShloMosaic.TcCoe Idealize.SL.Sem

/-- The kernel's program as printed runs, faults nowhere and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the six arguments, under the precondition, both programs end with the reference's
    result stage of the arguments in their result buffers. -/
theorem algebraic : Cert.algebraic_KernelIdeal_ReferenceIdeal := by
  intro m ρ m' ρ' hpre hagree
  refine ⟨fun c => Cert.ReferenceIdeal.ReadP.val_main_v75 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.Bridge.kernel_result m ρ c (hpre c)), (h c).2⟩)
      (Cert.KernelIdeal.ValueRun.run (F := Ideal) m ρ)
  · refine (θ_run Cert.ReferenceIdeal.defs _ _).mono (fun r h c => ⟨(h c).1.trans ?_, (h c).2⟩)
      (Cert.ReferenceIdeal.ValueP.run (F := Ideal) m' ρ')
    refine (Cert.ReferenceIdeal.ReadP.val_main_v75_eq m' c).trans ?_
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
